-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x64 .f32) (main_arg2 : FVec F S64x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S4096x4096 : Shape := ⟨2, ![4096, 4096]⟩
abbrev S1024x64 : Shape := ⟨2, ![1024, 64]⟩
abbrev S64x1024 : Shape := ⟨2, ![64, 1024]⟩
abbrev S1024x1024 : Shape := ⟨2, ![1024, 1024]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S1024x64, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4096_S1x4096 : S4096.ShapeCasts S1x4096
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x64_S64x1024_S1024x1024_1_0_0_1_n_n_wf : DotDims.WF S1024x64 S64x1024 S1024x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x4096.size a
  hwx0_1 : ∀ i : grid0.Coords, EltTy.bits .f32 = 32 ∨ (Rect.block (s := S64x4096) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x64 : Shape := ⟨2, ![4096, 64]⟩
abbrev S64x4096 : Shape := ⟨2, ![64, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x64_S64x4096_S4096x4096_1_0_0_1_n_n_wf : DotDims.WF S4096x64 S64x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Data.lean ====
/-
  The two pipelines' proof data, stated once for both kernels of the program and for any float instance.

  The first kernel computes the low-rank weight block by block: at grid point (i, j) it multiplies a 1024x64 block of
  the left factor by a 64x1024 block of the right factor and stores the 1024x1024 product. The second kernel is a
  blocked matrix product with an accumulator it keeps in a scratch buffer along the contraction axis: at a point whose
  contraction coordinate is 0 the scratch restarts from zero, at every point the product of the point's two blocks is
  added to it, and at the last contraction coordinate the scratch plus the bias row is stored to the output block.
  What the scratch holds after each point is therefore a recursion on the point (`accAt`), and the output window is
  written only at the points whose contraction coordinate is 7.
-/
import proofs.«156762_j88356067213436_1_alg».proof.Proof.Gen.Kernel.Launch
import proofs.«156762_j88356067213436_1_alg».proof.Proof.Gen.Kernel.Skeleton
import proofs.«156762_j88356067213436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- Every region below is stated at a parameter: the contents of the core's unscoped buffers when the region is entered.
variable (V : (c : Dev nD) → (b : Ref sig .tc) → Buf (Elt F) ((c : Thread nD τ).loc b))

/-! ## The weight kernel -/

/-- Window `w`'s block at point `t` of the weight kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight kernel's proof data: both factor blocks stay as fetched, the output's staging buffer holds the product
    of the point's two blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## The accumulating product kernel -/

/-- Window `w`'s block at point `t` of the product kernel, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand, a whole scoped buffer of the kernel's own. -/
abbrev scM : Memref sig .tc .vmem S1024x1024 .f32 := Memref.whole cc1_scratch0

/-- THE ACCUMULATION. What the scratch holds after the body at position `n`: the product of the point's two blocks
    added to zero where the contraction coordinate is 0 (the positions divisible by 8), and to what the position
    before left elsewhere. -/
def accAt (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else accAt c n (Nat.lt_of_succ_lt hn)) (iblk1 V c 1 ⟨n + 1, hn⟩)

/-- At a position divisible by 8 the accumulation restarts from zero. -/
theorem accAt_reset (c : Dev nD) (t : Fin cfg1.N) (h : t.val % 8 = 0) :
    accAt V c t.val t.isLt = k1_pay2 (iblk1 V c 0 t) (k1_pay1 (F := F)) (iblk1 V c 1 t) := by
  obtain ⟨n, hn⟩ := t
  cases n with
  | zero => rfl
  | succ n => exact congrArg (fun a => k1_pay2 (iblk1 V c 0 ⟨n + 1, hn⟩) a (iblk1 V c 1 ⟨n + 1, hn⟩)) (if_pos h)

/-- At any other position it continues from what the position before left. -/
theorem accAt_step (c : Dev nD) (t : Fin cfg1.N) (h : ¬t.val % 8 = 0) :
    accAt V c t.val t.isLt = k1_pay2 (iblk1 V c 0 t)
      (accAt V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun a => k1_pay2 (iblk1 V c 0 ⟨n + 1, hn⟩) a (iblk1 V c 1 ⟨n + 1, hn⟩)) (if_neg h)

/-- The product kernel's scoped rest with the scratch's part `X` named: the weight kernel's six staging buffers, each
    whole at some contents (scoped buffers the product kernel never touches), then `X`, beside the generator register
    at some state. -/
def withScratch (c : Dev nD) (X : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ X) ∗ (∃ r, prngReg c r))

/-- The class invariant of the product kernel's pipeline with the scratch named as a memref owned at some contents. -/
theorem PhiA1_eq (c : Dev nD) :
    (Pipeline.ΦA spec1 c : sProp 𝕄) = withScratch (F := F) c iprop(∃ d, owns (c : Thread nD τ) scM fullShare d) := by
  unfold Pipeline.ΦA withScratch; rw [scopedRest1_eq]; simp only [scM, owns_whole]; rfl

/-- The region invariant before position `n`: before the first point the class's (the scratch at anything); afterwards
    the scratch at what the point before left in it, the other scoped buffers at anything, the generator register at
    some state. -/
def PhiS (c : Dev nD) : (n : ℕ) → n ≤ cfg1.N → sProp 𝕄
  | 0, _ => Pipeline.ΦA spec1 c
  | n + 1, hn => withScratch (F := F) c (owns (c : Thread nD τ) scM fullShare (accAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = withScratch (F := F) c (owns (c : Thread nD τ) scM fullShare (accAt V c n hn)) := rfl
theorem PhiS_pos (c : Dev nD) (n : ℕ) (h : n ≤ cfg1.N) (hz : n ≠ 0) :
    PhiS V c n h = withScratch (F := F) c (owns (c : Thread nD τ) scM fullShare (accAt V c (n - 1) (by omega))) := by
  cases n with
  | zero => exact absurd rfl hz
  | succ n => rfl

/-- The product kernel's proof data: the three input blocks stay as fetched; the output's staging buffer holds the
    scratch plus the bias row (read by the pipeline only at the points that write it back); the invariant carries the
    scratch at `accAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Cert.Kernel.Pipe

end
-- ==== Proof.K.Region0.lean ====
/-
  The weight kernel's body at every grid point: it loads the point's 1024x64 and 64x1024 blocks, multiplies them and
  stores the 1024x1024 product over its whole output block.
-/
import proofs.«156762_j88356067213436_1_alg».proof.Proof.Gen.Kernel.Launch
import proofs.«156762_j88356067213436_1_alg».proof.Proof.Gen.Kernel.Skeleton
import proofs.«156762_j88356067213436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«156762_j88356067213436_1_alg».proof.Proof.K.Data
set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of every access of this body are zero. -/
private theorem offs_zero : (![0, 0] : Fin 2 → ℕ) = fun _ => 0 :=
  funext fun a => by match a with | ⟨0, _⟩ => rfl | ⟨1, _⟩ => rfl

/-- A load of the whole left block reads its contents. -/
private theorem ld_left (X : Vec F S1024x64 .f32) :
    View.ld X (Rect.unit (s := S1024x64) ![0, 0] S1024x64.size inb_S1024x64_S1024x64_0_0) = X :=
  View.ld_unit_zero (S := S1024x64) offs_zero inb_S1024x64_S1024x64_0_0 X

/-- A load of the whole right block reads its contents. -/
private theorem ld_right (X : Vec F S64x1024 .f32) :
    View.ld X (Rect.unit (s := S64x1024) ![0, 0] S64x1024.size inb_S64x1024_S64x1024_0_0) = X :=
  View.ld_unit_zero (S := S64x1024) offs_zero inb_S64x1024_S64x1024_0_0 X

/-- One store over the whole product block leaves its payload. -/
private theorem canon_prod (w : Vec F S1024x1024 .bf16) :
    View.canon [(⟨Rect.unit (s := S1024x1024) ![0, 0] S1024x1024.size inb_S1024x1024_S1024x1024_0_0, w⟩ :
      View.Piece (Elt F) S1024x1024 .bf16)] = w :=
  View.canon_unit_zero (S := S1024x1024) offs_zero inb_S1024x1024_S1024x1024_0_0 w

/-- That store covers the block. -/
private theorem cover_prod (w : Vec F S1024x1024 .bf16) (y : S1024x1024.Idx) :
    ∃ p ∈ ([⟨Rect.unit (s := S1024x1024) ![0, 0] S1024x1024.size inb_S1024x1024_S1024x1024_0_0, w⟩] :
      List (View.Piece (Elt F) S1024x1024 .bf16)), y ∈ p.1.set :=
  ⟨_, List.mem_singleton_self _, View.mem_set_unit_zero (S := S1024x1024) offs_zero inb_S1024x1024_S1024x1024_0_0 y⟩

/-! ## What the body finds in the two factor windows -/

/-- The left factor's staging buffer holds the point's block at every point, though the pipeline fetches it only
    where the column coordinate is 0: between two fetches the block index does not move. -/
private theorem found0_left (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The right factor's staging buffer holds the point's block; it is fetched at every point. -/
private theorem found0_right (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- On whole staging memrefs, the factors' at contents `x0` and `x1` and the product's at anything, the body runs to
    the continuation holding the factors' as they were and the product's at the truncated product of the two. -/
private theorem product_body (c : Dev nD) (E : Set ℕ) (i : grid0.Coords)
    (arg2 : Memref sig .tc .vmem S1024x64 .f32) (harg2 : arg2.IsWhole)
    (arg3 : Memref sig .tc .vmem S64x1024 .f32) (harg3 : arg3.IsWhole)
    (arg4 : Memref sig .tc .vmem S1024x1024 .bf16) (harg4 : arg4.IsWhole)
    (x0 : Vec F S1024x64 .f32) (x1 : Vec F S64x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__uv_kernel i arg2 harg2 arg3 harg3 arg4 harg4) K := by
  simp only [cc0__uv_kernel_eq_skeleton]; unfold cc0__uv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_prod _)).trans ((canon_prod _).trans ?_)
  exact congrArg₂ k0_pay1 ((View.readAt_eq_ld _ _ _).trans (ld_left _)) ((View.readAt_eq_ld _ _ _).trans (ld_right _))

/-! ## The obligation at a generic point -/

/-- What the pipeline hands the body at point `t`: the invariant, what the core owes, and the three windows' current
    staging buffers, one by one. -/
private def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and debt, each buffer at what the body leaves in it. -/
private def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both factors' buffers hold the point's blocks, so the body's triple applies at those
    blocks; the invariant and the debt are not touched. -/
private theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_left, found0_right]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_body c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the weight kernel's pipeline, at every point. -/
theorem body_obligation0 (c : Dev nD) : BodyObligation (dat0 (F := F) V c) (defs₀ (F := F)) Variants.none () Set.univ := fun t => by
  rw [bigSep_W0, bigSep_W0]
  exact body_at0 V c t

end Cert.Kernel.Pipe

end
-- ==== Proof.K.Runs1.lean ====
/-
  The product kernel's body on any whole staging memrefs, in each of the three cases of its two conditionals over the
  contraction coordinate k (k = 0: zero the scratch first; k = 7: store the scratch plus the bias row to the output).
  No grid point is in both (the axis has 8 positions), so three cases: A (k = 0), B (0 < k < 7), C (k = 7).
-/
import proofs.«156762_j88356067213436_1_alg».proof.Proof.Gen.Kernel.Launch
import proofs.«156762_j88356067213436_1_alg».proof.Proof.Gen.Kernel.Skeleton
import proofs.«156762_j88356067213436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«156762_j88356067213436_1_alg».proof.Proof.K.Data
set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's condition (the contraction coordinate is 0), from the grid coordinates. -/
abbrev cond1_0 (i : grid1.Coords) : Prop :=
  (Scalar.cmpi .ne (Scalar.extui (Scalar.cmpi .eq (BitVec.ofNat 32 (i 2).val) 0#32)) 0#32) = 1#1
/-- It holds at the points divisible by 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the contraction coordinate is 7). -/
abbrev cond1_1 (i : grid1.Coords) : Prop := k1_cond2 i = 1#1
/-- It holds at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The offsets of the whole-block rectangle are zero on both axes. -/
private theorem off00 : (![0, 0] : Fin 2 → Nat) = fun _ => 0 := funext fun a => by fin_cases a <;> rfl

set_option maxHeartbeats 1000000 in
/-- CASE A (k = 0). The x block and the weight block are read, the scratch (at anything) ends at their product added
    to zero; the bias and output buffers are not touched. -/
theorem run1_A (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x512 .f32) (x1 : Vec F S512x1024 .bf16) (E : Set ℕ) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 (k1_pay1 (F := F)) x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  -- the scratch: the zero store, then a whole-block store of the blocks' product added to the zero block read back
  iexists _; isplitr; rotate_left
  · iexact HS
  ipureintro
  sl_unfold_words
  rw [View.read_writes_eq_canon _ _ _ (fun y => ⟨_, List.mem_cons_self, View.mem_set_unit_zero off00 inb_S1024x1024_S1024x1024_0_0 y⟩)]
  rw [View.canon_cons_unit_zero (S := S1024x1024) off00]
  simp only [View.readAt_eq_ld, harg3.read_unread, harg4.read_unread,
    View.readCov_unit_zero (S := S1024x1024) _ off00,
    View.ld_unit_zero (S := S1024x512) off00, View.ld_unit_zero (S := S512x1024) off00]

/-- CASE B (0 < k < 7). The scratch at `xs` ends at the blocks' product added to `xs`. -/
theorem run1_B (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 : Vec F S1024x512 .f32) (x1 : Vec F S512x1024 .bf16) (xs : Vec F S1024x1024 .f32) (E : Set ℕ) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 xs x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr; rotate_left
  · iexact HS
  ipureintro
  rw [View.read_writes_eq_canon _ _ _ (fun y => ⟨_, List.mem_singleton_self _, View.mem_set_unit_zero off00 inb_S1024x1024_S1024x1024_0_0 y⟩)]
  rw [View.canon_unit_zero off00]
  simp only [View.readAt_eq_ld, harg3.read_unread, harg4.read_unread, harg7.read_unread,
    View.ld_unit_zero (S := S1024x512) off00, View.ld_unit_zero (S := S512x1024) off00,
    View.ld_unit_zero (S := S1024x1024) off00]

set_option maxHeartbeats 1000000 in
/-- CASE C (k = 7). As case B, and then the output buffer (at anything) ends at the new scratch plus the bias row. -/
theorem run1_C (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x512 .f32) (x1 : Vec F S512x1024 .bf16) (x2 : Vec F S1x1024 .f32) (xs : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 xs x1) x2)
            ∗ owns (c : Thread nD τ) arg7 fullShare (k1_pay2 x0 xs x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d6, %f6, -, H6⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · -- the output block: one whole-block store of the new scratch (read back through its own store) plus the bias row
    iexists _; isplitr; rotate_left
    · iexact H6
    ipureintro
    rw [View.read_writes_eq_canon _ _ _ (fun y => ⟨_, List.mem_singleton_self _, View.mem_set_unit_zero off00 inb_S1024x1024_S1024x1024_0_0 y⟩)]
    sl_unfold_words
    rw [View.canon_unit_zero off00]
    simp only [View.readAt_eq_ld, harg3.read_unread, harg4.read_unread, harg5.read_unread, harg7.read_unread,
      View.readCov_unit_zero (S := S1024x1024) _ off00,
      View.ld_unit_zero (S := S1024x512) off00, View.ld_unit_zero (S := S512x1024) off00,
      View.ld_unit_zero (S := S1x1024) off00, View.ld_unit_zero (S := S1024x1024) off00]
  -- the scratch: one whole-block store of the blocks' product added to what it held
  iexists _; isplitr; rotate_left
  · iexact HS
  ipureintro
  sl_unfold_words
  rw [View.read_writes_eq_canon _ _ _ (fun y => ⟨_, List.mem_singleton_self _, View.mem_set_unit_zero off00 inb_S1024x1024_S1024x1024_0_0 y⟩)]
  rw [View.canon_unit_zero off00]
  simp only [View.readAt_eq_ld, harg3.read_unread, harg4.read_unread, harg7.read_unread,
    View.ld_unit_zero (S := S1024x512) off00, View.ld_unit_zero (S := S512x1024) off00,
    View.ld_unit_zero (S := S1024x1024) off00]

end Cert.Kernel.Pipe

end
-- ==== Proof.K.Region1.lean ====
/-
  The product kernel's body at every grid point, by the point's place on the contraction axis: at coordinate 0 the
  scratch is zeroed first; at every point the product of the point's two blocks is added to the scratch; at coordinate
  7 the scratch plus the bias row is stored over the whole output block.
-/
import proofs.«156762_j88356067213436_1_alg».proof.Proof.Gen.Kernel.Launch
import proofs.«156762_j88356067213436_1_alg».proof.Proof.Gen.Kernel.Skeleton
import proofs.«156762_j88356067213436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«156762_j88356067213436_1_alg».proof.Proof.K.Runs1
set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' current staging buffers hold -/

/-- The x window's current buffer holds the point's x block, fetched there or not. -/
theorem before1_0 (c : Dev nD) (t : Fin cfg1.N) (d) : (dat1 (F := F) V c).before 0 t d = iblk1 V c 0 t :=
  ((dat1 (F := F) V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight window's current buffer holds the point's weight block. -/
theorem before1_1 (c : Dev nD) (t : Fin cfg1.N) (d) : (dat1 (F := F) V c).before 1 t d = iblk1 V c 1 t :=
  ((dat1 (F := F) V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias window's current buffer holds the point's bias row block, though it is fetched only where the
    contraction coordinate is 0: between fetches its block index does not move. -/
theorem before1_2 (c : Dev nD) (t : Fin cfg1.N) (d) : (dat1 (F := F) V c).before 2 t d = iblk1 V c 2 t :=
  ((dat1 (F := F) V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## Where the output window is idle -/

/-- Away from the last contraction coordinate the output window is idle: the body stores nothing into it. -/
theorem idle1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h

/-- At the last contraction coordinate it is live. -/
theorem live1_3 (t : Fin cfg1.N) (h : cond1_1 (grid1.coords t)) : cfg1.idle 3 (grid1.coords t) = false := by
  show (!(k1_cond2 (grid1.coords t) == 1#1)) = false
  rw [Bool.not_eq_false', beq_iff_eq]; exact h

/-- Away from the last contraction coordinate the output block is not written back. -/
theorem noflush1_3 (t : Fin cfg1.N) (h : ¬t.val % 8 = 7) : (cfg1.win 3).flush t = false := by
  rw [← Bool.not_eq_true]; exact fun hf => h ((flush1_3 t).mp hf)

/-! ## The body obligation, at a generic point -/

/-- Each window's current staging memref at point t, as the pipeline passes it to the body, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point t: the invariant, nothing owed, and the four windows' current buffers. -/
def bodyPre1 (c : Dev nD) (t : Fin cfg1.N) : sProp 𝕄 :=
  iprop((dat1 (F := F) V c).Φ t.castSucc ∗ (dat1 (F := F) V c).owesAt () t.castSucc
    ∗ (∃ d, owns (c : Thread nD τ) (ms1_0 t) fullShare ((dat1 (F := F) V c).before 0 t d))
    ∗ (∃ d, owns (c : Thread nD τ) (ms1_1 t) fullShare ((dat1 (F := F) V c).before 1 t d))
    ∗ (∃ d, owns (c : Thread nD τ) (ms1_2 t) fullShare ((dat1 (F := F) V c).before 2 t d))
    ∗ (∃ d, owns (c : Thread nD τ) (ms1_3 t) fullShare ((dat1 (F := F) V c).before 3 t d)))

/-- And what it returns. -/
def bodyPost1 (c : Dev nD) (t : Fin cfg1.N) : sProp 𝕄 :=
  iprop((dat1 (F := F) V c).Φ t.succ ∗ (dat1 (F := F) V c).owesAt () t.succ
    ∗ (dat1 (F := F) V c).leavesExact 0 t
    ∗ (dat1 (F := F) V c).leavesExact 1 t
    ∗ (dat1 (F := F) V c).leavesExact 2 t
    ∗ (dat1 (F := F) V c).leavesExact 3 t)

/-- An input window is live everywhere, so the body leaves its buffer at the proof data's contents: its block. -/
theorem leaves1_0 (c : Dev nD) (t : Fin cfg1.N) :
    (dat1 (F := F) V c).leavesExact 0 t = owns (c : Thread nD τ) (ms1_0 t) fullShare (iblk1 V c 0 t) := by
  rw [← after1_0]
theorem leaves1_1 (c : Dev nD) (t : Fin cfg1.N) :
    (dat1 (F := F) V c).leavesExact 1 t = owns (c : Thread nD τ) (ms1_1 t) fullShare (iblk1 V c 1 t) := by
  rw [← after1_1]
theorem leaves1_2 (c : Dev nD) (t : Fin cfg1.N) :
    (dat1 (F := F) V c).leavesExact 2 t = owns (c : Thread nD τ) (ms1_2 t) fullShare (iblk1 V c 2 t) := by
  rw [← after1_2]
/-- At the last contraction coordinate the output window is live: its buffer is left at the scratch plus the bias. -/
theorem leaves1_3 (c : Dev nD) (t : Fin cfg1.N) (h : cond1_1 (grid1.coords t)) :
    (dat1 (F := F) V c).leavesExact 3 t
      = owns (c : Thread nD τ) (ms1_3 t) fullShare (k1_pay3 (accAt V c t.val t.isLt) (iblk1 V c 2 t)) := by
  rw [← after1_3]; unfold Dat.leavesExact; rw [live1_3 t h]

set_option maxHeartbeats 4800000 in
/-- The body at any point. The input buffers hold their blocks; the point's place on the contraction axis says which
    run applies. The invariant hands the body the scratch at what the point before left in it (at anything before the
    first point) and takes it back at this point's accumulation; the six foreign staging buffers and the generator
    register pass through untouched. The output buffer is handed back as found away from the last contraction
    coordinate, and at the scratch plus the bias row there. -/
theorem sound_body1 (c : Dev nD) (t : Fin cfg1.N) :
    bodyPre1 (F := F) V c t ⊢ wp frame (wpE (defs₀ (F := F)) Variants.none c none) Set.univ (bodyAt1 t)
      (fun _ => bodyPost1 (F := F) V c t) := by
  unfold bodyPre1 bodyPost1 bodyAt1
  simp only [before1_0, before1_1, before1_2]
  rw [show (dat1 (F := F) V c).owesAt () t.succ = (dat1 (F := F) V c).owesAt () t.castSucc from rfl]
  rw [show (dat1 (F := F) V c).Φ t.succ = PhiS V c (t.val + 1) t.isLt from rfl, PhiS_succ]
  rw [leaves1_0, leaves1_1, leaves1_2]
  by_cases h0 : t.val % 8 = 0
  · -- contraction coordinate 0: the accumulation restarts
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 (F := F) V c) 3 t (idle1_3 t hc1) (noflush1_3 t h1)]
    rw [accAt_reset V c t h0]
    by_cases hz : t.val = 0
    · rw [PhiS_castSucc V c t, PhiS_zero V c _ _ hz, PhiA1_eq]
      unfold withScratch
      iintro ⟨⟨⟨G1, G2, G3, G4, G5, G6, HS⟩, Hg⟩, Ho, ⟨%d0, H0⟩, ⟨%d1, H1⟩, ⟨%d2, H2⟩, ⟨%d3, H3⟩⟩
      iapply (run1_A (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) Set.univ _)
      isplitl [H0]; · iexact H0
      isplitl [H1]; · iexact H1
      isplitl [HS]; · iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold withScratch
      iintro ⟨⟨⟨G1, G2, G3, G4, G5, G6, HS⟩, Hg⟩, Ho, ⟨%d0, H0⟩, ⟨%d1, H1⟩, ⟨%d2, H2⟩, ⟨%d3, H3⟩⟩
      iapply (run1_A (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) Set.univ _)
      isplitl [H0]; · iexact H0
      isplitl [H1]; · iexact H1
      isplitl [HS]; · iexists _; iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond1_0 (grid1.coords t) := fun h => h0 ((hcond1_0 t).mp h)
    rw [accAt_step V c t h0]
    rw [PhiS_castSucc V c t, PhiS_pos V c _ _ hz]
    unfold withScratch
    by_cases h1 : t.val % 8 = 7
    · -- contraction coordinate 7: the output block is stored
      have hc1 : cond1_1 (grid1.coords t) := (hcond1_1 t).mpr h1
      rw [leaves1_3 V c t hc1, accAt_step V c t h0]
      iintro ⟨⟨⟨G1, G2, G3, G4, G5, G6, HS⟩, Hg⟩, Ho, ⟨%d0, H0⟩, ⟨%d1, H1⟩, ⟨%d2, H2⟩, ⟨%d3, H3⟩⟩
      iapply (run1_C (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) (iblk1 V c 2 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexact H3
    · -- a middle contraction coordinate: the product is added to the scratch, nothing else
      have hc1 : ¬cond1_1 (grid1.coords t) := fun h => h1 ((hcond1_1 t).mp h)
      rw [Dat.leavesExact_idle (dat1 (F := F) V c) 3 t (idle1_3 t hc1) (noflush1_3 t h1)]
      iintro ⟨⟨⟨G1, G2, G3, G4, G5, G6, HS⟩, Hg⟩, Ho, ⟨%d0, H0⟩, ⟨%d1, H1⟩, ⟨%d2, H2⟩, ⟨%d3, H3⟩⟩
      iapply (run1_B (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t)
        (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3

/-- The library's body obligation of the product kernel's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 (F := F) V c).Φ 0 = PhiS V c 0 (Nat.zero_le _) from rfl, PhiS_zero V c 0 _ rfl]

/-- After the last point the invariant gives the class's back: the scratch's named contents are forgotten. -/
theorem hout1 (c : Dev nD) : (dat1 (F := F) V c).Φ (Fin.last cfg1.N) ⊢ (Pipeline.ΦA spec1 c : sProp 𝕄) := by
  rw [show (dat1 (F := F) V c).Φ (Fin.last cfg1.N)
      = PhiS V c (Fin.last cfg1.N).val (Nat.le_of_lt_succ (Fin.last cfg1.N).isLt) from rfl,
    PhiS_pos V c _ _ (by rw [Fin.val_last]; have : cfg1.N = 256 := N_1; omega), PhiA1_eq]
  unfold withScratch
  iintro ⟨⟨G1, G2, G3, G4, G5, G6, HS⟩, Hg⟩
  isplitr [Hg]
  · isplitl [G1]; · iexact G1
    isplitl [G2]; · iexact G2
    isplitl [G3]; · iexact G3
    isplitl [G4]; · iexact G4
    isplitl [G5]; · iexact G5
    isplitl [G6]; · iexact G6
    iexists _; iexact HS
  iexact Hg

end Cert.Kernel.Pipe

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.K.Launch.lean ====
/-
  The whole program's run: @main is the weight kernel's region, one host operation (the bias reshaped to a row), and
  the product kernel's region. Between two items a core holds every unscoped buffer whole at a valuation: the launch
  memory, then the weight array at what the first region's write-backs leave, then the reshaped bias, then the result
  array at what the second region's write-backs leave. Every weakly fair execution terminates with every unscoped
  buffer at the last valuation; the four arguments are read back through the fold to their launch contents.
-/
import proofs.«156762_j88356067213436_1_alg».proof.Proof.Gen.Kernel.Launch
import proofs.«156762_j88356067213436_1_alg».proof.Proof.Gen.Kernel.Skeleton
import proofs.«156762_j88356067213436_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«156762_j88356067213436_1_alg».proof.Proof.K.Region0
import proofs.«156762_j88356067213436_1_alg».proof.Proof.K.Region1
import proofs.«156762_j88356067213436_1_alg».proof.Proof.LibClassARegion
set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- Core `c`'s buffers at launch. -/
abbrev B0 : Dev nD → Valuation τ sig (Elt F) := fun c b => m ((c : Dev nD), b)
/-- The same read at the TensorCore's references: what the weight kernel's proof data take. -/
abbrev E0 : (c : Dev nD) → (b : Ref sig .tc) → Buf (Elt F) ((c : Thread nD τ).loc b) := fun c b => B0 m c b

/-- After the weight kernel's region: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the host operation (the bias as a row): the product kernel's entry. -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b

/-- After the product kernel's region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- The host operation writes only the bias row's buffer. -/
theorem B2_of_ne (c : Dev nD) (b : Ref sig .tc) (hb : b ≠ main_v1) :
    B2 m c (Proc.devRef .tc b) = B1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := B2_of_ne m c main_arg0 (by decide)
    _ = B0 m c (Proc.devRef .tc main_arg0) := B1_of_ne m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := (B1_arr m c 0).trans (((dat0 (E0 m) c).arrAt_in 0 rfl _).trans (A_eq0 (E0 m) c 0))
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := (B1_arr m c 1).trans (((dat0 (E0 m) c).arrAt_in 1 rfl _).trans (A_eq0 (E0 m) c 1))
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := B1_of_ne m c main_arg3 (by decide)
    _ = m ((c : Thread nD τ).loc main_arg3) := rfl

/-! ## The proof data family and the items as segments -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0

theorem hostOps1_fresh : (hostOps1 : List (HloOp τ sig (Elt F))).Forall fun op => op.fresh = ∅ := by
  simp only [List.Forall]; repeat' constructor

/-- No pipeline prefetches a table. -/
theorem noPref (p : Fin 2) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
/-- The weight kernel's region: entered from the launch contents, left with the weight array written. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (E0 m) c) (fun _ _ => rfl) (fun _ _ => rfl) (fun _ _ => rfl)
    (fun c => .rfl) (fun c => .rfl) (noPref 0) (B0 m) (B1 m) (fun c w => rfl) (hF0 m) (hrest0 m)

set_option backward.isDefEq.respectTransparency.types false in
/-- The product kernel's region: entered after the host operation, left with the result array written. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (E2 m) c) (fun _ _ => rfl) (fun _ _ => rfl) (fun _ _ => rfl)
    (fun c => hin1 (E2 m) c) (fun c => hout1 (E2 m) c) (noPref 1) (B2 m) (B3 m) (fun c w => rfl) (hF1 m) (hrest1 m)

/-- The host operation as a segment over the unscoped buffers, the generator register and the core's debts riding along. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) (Pipeline.ClassA.rides (U' := UR sig nD τ))

abbrev segs : List (Pipeline.Seg (pcfgs (F := F)) adm (pdats m) () defs₀ 𝒱₀ L lv) :=
  [ .region (reg0 m), .host (hseg m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last valuation, the generator register at some state. -/
abbrev Tₙ (c : Dev nD) : sProp 𝕄 := iprop(StableHlo.held (c : Thread nD τ) (Pipeline.ucRefs τ sig) (B3 m c) ∗ ∃ r, prngReg c r)

set_option backward.isDefEq.respectTransparency.types false in
/-- THE RUN. Every weakly fair execution of @main terminates, nothing faulting, and in every final memory every
    unscoped buffer of every core holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between (U' := UR sig nD τ) c (B0 m c)) (Tₙ := Tₙ m)
    (hch := ⟨fun _ => .rfl, fun _ => .rfl, fun _ => .rfl, fun c => by
      show Pipeline.ClassA.between (U' := UR sig nD τ) c (B3 m c) ⊢ iprop(Tₙ m c ∗ ∃ W, owes (c : Thread nD τ) (0 : CellTallies nD τ sig Unit) W)
      unfold Pipeline.ClassA.between Pipeline.ClassA.rides
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c)⟩) (run_all m ρ)

/-- The run with the result array named: what the product kernel's write-backs leave, beside the arguments as launched. -/
theorem run_result : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (B3_arr m c 3),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c)⟩) (run_all m ρ)

/-- What the product kernel's region is entered with: the arguments as launched, the weight array as the first region
    left it, the bias row as the host operation wrote it. -/
theorem E2_main_arg0 (c : Dev nD) : E2 m c main_arg0 = m ((c : Thread nD τ).loc main_arg0) :=
  (B2_of_ne m c main_arg0 (by decide)).trans ((B1_of_ne m c main_arg0 (by decide)).trans rfl)
theorem E2_main_v0 (c : Dev nD) : E2 m c main_v0 = (dat0 (E0 m) c).arrAt 2 cfg0.N :=
  (B2_of_ne m c main_v0 (by decide)).trans (B1_arr m c 2)
theorem E2_main_v1 (c : Dev nD) :
    E2 m c main_v1 = shapeCast S1x4096 (m ((c : Thread nD τ).loc main_arg3)) shapeCasts_S4096_S1x4096 := by
  have e : B2 m c (Proc.devRef .tc main_v1)
      = shapeCast S1x4096 (B1 m c (Proc.devRef .tc main_arg3)) shapeCasts_S4096_S1x4096 := by
    show StableHlo.after hostOps1 (B1 m c) (Proc.devRef .tc main_v1) = _
    after_results
    rfl
  exact e.trans (congrArg (fun a => shapeCast S1x4096 a shapeCasts_S4096_S1x4096) ((B1_of_ne m c main_arg3 (by decide)).trans rfl))

end Cert.Kernel.Pipe

end
-- ==== Proof.KI.Data.lean ====
/-
  The two pipelines' proof data, stated once for both kernels of the program and for any float instance.

  The first kernel computes the low-rank weight block by block: at grid point (i, j) it multiplies a 1024x64 block of
  the left factor by a 64x1024 block of the right factor and stores the 1024x1024 product. The second kernel is a
  blocked matrix product with an accumulator it keeps in a scratch buffer along the contraction axis: at a point whose
  contraction coordinate is 0 the scratch restarts from zero, at every point the product of the point's two blocks is
  added to it, and at the last contraction coordinate the scratch plus the bias row is stored to the output block.
  What the scratch holds after each point is therefore a recursion on the point (`accAt`), and the output window is
  written only at the points whose contraction coordinate is 7.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- Every region below is stated at a parameter: the contents of the core's unscoped buffers when the region is entered.
variable (V : (c : Dev nD) → (b : Ref sig .tc) → Buf (Elt F) ((c : Thread nD τ).loc b))

/-! ## The weight kernel -/

/-- Window `w`'s block at point `t` of the weight kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight kernel's proof data: both factor blocks stay as fetched, the output's staging buffer holds the product
    of the point's two blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

/-! ## The accumulating product kernel -/

/-- Window `w`'s block at point `t` of the product kernel, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand, a whole scoped buffer of the kernel's own. -/
abbrev scM : Memref sig .tc .vmem S1024x1024 .f32 := Memref.whole cc1_scratch0

/-- THE ACCUMULATION. What the scratch holds after the body at position `n`: the product of the point's two blocks
    added to zero where the contraction coordinate is 0 (the positions divisible by 8), and to what the position
    before left elsewhere. -/
def accAt (c : Dev nD) : (n : ℕ) → n < cfg1.N → Vec F S1024x1024 .f32
  | 0, hn => k1_pay2 (iblk1 V c 0 ⟨0, hn⟩) (k1_pay1 (F := F)) (iblk1 V c 1 ⟨0, hn⟩)
  | n + 1, hn => k1_pay2 (iblk1 V c 0 ⟨n + 1, hn⟩)
      (if (n + 1) % 8 = 0 then (k1_pay1 (F := F)) else accAt c n (Nat.lt_of_succ_lt hn)) (iblk1 V c 1 ⟨n + 1, hn⟩)

/-- At a position divisible by 8 the accumulation restarts from zero. -/
theorem accAt_reset (c : Dev nD) (t : Fin cfg1.N) (h : t.val % 8 = 0) :
    accAt V c t.val t.isLt = k1_pay2 (iblk1 V c 0 t) (k1_pay1 (F := F)) (iblk1 V c 1 t) := by
  obtain ⟨n, hn⟩ := t
  cases n with
  | zero => rfl
  | succ n => exact congrArg (fun a => k1_pay2 (iblk1 V c 0 ⟨n + 1, hn⟩) a (iblk1 V c 1 ⟨n + 1, hn⟩)) (if_pos h)

/-- At any other position it continues from what the position before left. -/
theorem accAt_step (c : Dev nD) (t : Fin cfg1.N) (h : ¬t.val % 8 = 0) :
    accAt V c t.val t.isLt = k1_pay2 (iblk1 V c 0 t)
      (accAt V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun a => k1_pay2 (iblk1 V c 0 ⟨n + 1, hn⟩) a (iblk1 V c 1 ⟨n + 1, hn⟩)) (if_neg h)

/-- The product kernel's scoped rest with the scratch's part `X` named: the weight kernel's six staging buffers, each
    whole at some contents (scoped buffers the product kernel never touches), then `X`, beside the generator register
    at some state. -/
def withScratch (c : Dev nD) (X : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ X) ∗ (∃ r, prngReg c r))

/-- The class invariant of the product kernel's pipeline with the scratch named as a memref owned at some contents. -/
theorem PhiA1_eq (c : Dev nD) :
    (Pipeline.ΦA spec1 c : sProp 𝕄) = withScratch (F := F) c iprop(∃ d, owns (c : Thread nD τ) scM fullShare d) := by
  unfold Pipeline.ΦA withScratch; rw [scopedRest1_eq]; simp only [scM, owns_whole]; rfl

/-- The region invariant before position `n`: before the first point the class's (the scratch at anything); afterwards
    the scratch at what the point before left in it, the other scoped buffers at anything, the generator register at
    some state. -/
def PhiS (c : Dev nD) : (n : ℕ) → n ≤ cfg1.N → sProp 𝕄
  | 0, _ => Pipeline.ΦA spec1 c
  | n + 1, hn => withScratch (F := F) c (owns (c : Thread nD τ) scM fullShare (accAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = withScratch (F := F) c (owns (c : Thread nD τ) scM fullShare (accAt V c n hn)) := rfl
theorem PhiS_pos (c : Dev nD) (n : ℕ) (h : n ≤ cfg1.N) (hz : n ≠ 0) :
    PhiS V c n h = withScratch (F := F) c (owns (c : Thread nD τ) scM fullShare (accAt V c (n - 1) (by omega))) := by
  cases n with
  | zero => exact absurd rfl hz
  | succ n => rfl

/-- The product kernel's proof data: the three input blocks stay as fetched; the output's staging buffer holds the
    scratch plus the bias row (read by the pipeline only at the points that write it back); the invariant carries the
    scratch at `accAt`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (iblk1 V c 2 t) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Pipe

end
-- ==== Proof.KI.Region0.lean ====
/-
  The weight kernel's body at every grid point: it loads the point's 1024x64 and 64x1024 blocks, multiplies them and
  stores the 1024x1024 product over its whole output block.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«156762_j88356067213436_1_alg».proof.Proof.KI.Data
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of every access of this body are zero. -/
private theorem offs_zero : (![0, 0] : Fin 2 → ℕ) = fun _ => 0 :=
  funext fun a => by match a with | ⟨0, _⟩ => rfl | ⟨1, _⟩ => rfl

/-- A load of the whole left block reads its contents. -/
private theorem ld_left (X : Vec F S1024x64 .f32) :
    View.ld X (Rect.unit (s := S1024x64) ![0, 0] S1024x64.size inb_S1024x64_S1024x64_0_0) = X :=
  View.ld_unit_zero (S := S1024x64) offs_zero inb_S1024x64_S1024x64_0_0 X

/-- A load of the whole right block reads its contents. -/
private theorem ld_right (X : Vec F S64x1024 .f32) :
    View.ld X (Rect.unit (s := S64x1024) ![0, 0] S64x1024.size inb_S64x1024_S64x1024_0_0) = X :=
  View.ld_unit_zero (S := S64x1024) offs_zero inb_S64x1024_S64x1024_0_0 X

/-- One store over the whole product block leaves its payload. -/
private theorem canon_prod (w : Vec F S1024x1024 .bf16) :
    View.canon [(⟨Rect.unit (s := S1024x1024) ![0, 0] S1024x1024.size inb_S1024x1024_S1024x1024_0_0, w⟩ :
      View.Piece (Elt F) S1024x1024 .bf16)] = w :=
  View.canon_unit_zero (S := S1024x1024) offs_zero inb_S1024x1024_S1024x1024_0_0 w

/-- That store covers the block. -/
private theorem cover_prod (w : Vec F S1024x1024 .bf16) (y : S1024x1024.Idx) :
    ∃ p ∈ ([⟨Rect.unit (s := S1024x1024) ![0, 0] S1024x1024.size inb_S1024x1024_S1024x1024_0_0, w⟩] :
      List (View.Piece (Elt F) S1024x1024 .bf16)), y ∈ p.1.set :=
  ⟨_, List.mem_singleton_self _, View.mem_set_unit_zero (S := S1024x1024) offs_zero inb_S1024x1024_S1024x1024_0_0 y⟩

/-! ## What the body finds in the two factor windows -/

/-- The left factor's staging buffer holds the point's block at every point, though the pipeline fetches it only
    where the column coordinate is 0: between two fetches the block index does not move. -/
private theorem found0_left (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The right factor's staging buffer holds the point's block; it is fetched at every point. -/
private theorem found0_right (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- On whole staging memrefs, the factors' at contents `x0` and `x1` and the product's at anything, the body runs to
    the continuation holding the factors' as they were and the product's at the truncated product of the two. -/
private theorem product_body (c : Dev nD) (E : Set ℕ) (i : grid0.Coords)
    (arg2 : Memref sig .tc .vmem S1024x64 .f32) (harg2 : arg2.IsWhole)
    (arg3 : Memref sig .tc .vmem S64x1024 .f32) (harg3 : arg3.IsWhole)
    (arg4 : Memref sig .tc .vmem S1024x1024 .bf16) (harg4 : arg4.IsWhole)
    (x0 : Vec F S1024x64 .f32) (x1 : Vec F S64x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__uv_kernel i arg2 harg2 arg3 harg3 arg4 harg4) K := by
  simp only [cc0__uv_kernel_eq_skeleton]; unfold cc0__uv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_prod _)).trans ((canon_prod _).trans ?_)
  exact congrArg₂ k0_pay1 ((View.readAt_eq_ld _ _ _).trans (ld_left _)) ((View.readAt_eq_ld _ _ _).trans (ld_right _))

/-! ## The obligation at a generic point -/

/-- What the pipeline hands the body at point `t`: the invariant, what the core owes, and the three windows' current
    staging buffers, one by one. -/
private def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and debt, each buffer at what the body leaves in it. -/
private def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both factors' buffers hold the point's blocks, so the body's triple applies at those
    blocks; the invariant and the debt are not touched. -/
private theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_left, found0_right]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_body c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the weight kernel's pipeline, at every point. -/
theorem body_obligation0 (c : Dev nD) : BodyObligation (dat0 (F := F) V c) (defs₀ (F := F)) Variants.none () Set.univ := fun t => by
  rw [bigSep_W0, bigSep_W0]
  exact body_at0 V c t

end Cert.KernelIdeal.Pipe

end
-- ==== Proof.KI.Runs1.lean ====
/-
  The product kernel's body on any whole staging memrefs, in each of the three cases of its two conditionals over the
  contraction coordinate k (k = 0: zero the scratch first; k = 7: store the scratch plus the bias row to the output).
  No grid point is in both (the axis has 8 positions), so three cases: A (k = 0), B (0 < k < 7), C (k = 7).
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«156762_j88356067213436_1_alg».proof.Proof.KI.Data
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's condition (the contraction coordinate is 0), from the grid coordinates. -/
abbrev cond1_0 (i : grid1.Coords) : Prop :=
  (Scalar.cmpi .ne (Scalar.extui (Scalar.cmpi .eq (BitVec.ofNat 32 (i 2).val) 0#32)) 0#32) = 1#1
/-- It holds at the points divisible by 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the contraction coordinate is 7). -/
abbrev cond1_1 (i : grid1.Coords) : Prop := k1_cond2 i = 1#1
/-- It holds at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- The offsets of the whole-block rectangle are zero on both axes. -/
private theorem off00 : (![0, 0] : Fin 2 → Nat) = fun _ => 0 := funext fun a => by fin_cases a <;> rfl

set_option maxHeartbeats 1000000 in
/-- CASE A (k = 0). The x block and the weight block are read, the scratch (at anything) ends at their product added
    to zero; the bias and output buffers are not touched. -/
theorem run1_A (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x512 .f32) (x1 : Vec F S512x1024 .bf16) (E : Set ℕ) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 (k1_pay1 (F := F)) x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  -- the scratch: the zero store, then a whole-block store of the blocks' product added to the zero block read back
  iexists _; isplitr; rotate_left
  · iexact HS
  ipureintro
  sl_unfold_words
  rw [View.read_writes_eq_canon _ _ _ (fun y => ⟨_, List.mem_cons_self, View.mem_set_unit_zero off00 inb_S1024x1024_S1024x1024_0_0 y⟩)]
  rw [View.canon_cons_unit_zero (S := S1024x1024) off00]
  simp only [View.readAt_eq_ld, harg3.read_unread, harg4.read_unread,
    View.readCov_unit_zero (S := S1024x1024) _ off00,
    View.ld_unit_zero (S := S1024x512) off00, View.ld_unit_zero (S := S512x1024) off00]

/-- CASE B (0 < k < 7). The scratch at `xs` ends at the blocks' product added to `xs`. -/
theorem run1_B (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 : Vec F S1024x512 .f32) (x1 : Vec F S512x1024 .bf16) (xs : Vec F S1024x1024 .f32) (E : Set ℕ) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 xs x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr; rotate_left
  · iexact HS
  ipureintro
  rw [View.read_writes_eq_canon _ _ _ (fun y => ⟨_, List.mem_singleton_self _, View.mem_set_unit_zero off00 inb_S1024x1024_S1024x1024_0_0 y⟩)]
  rw [View.canon_unit_zero off00]
  simp only [View.readAt_eq_ld, harg3.read_unread, harg4.read_unread, harg7.read_unread,
    View.ld_unit_zero (S := S1024x512) off00, View.ld_unit_zero (S := S512x1024) off00,
    View.ld_unit_zero (S := S1024x1024) off00]

set_option maxHeartbeats 1000000 in
/-- CASE C (k = 7). As case B, and then the output buffer (at anything) ends at the new scratch plus the bias row. -/
theorem run1_C (c : Dev nD) (i : grid1.Coords)
    (arg3 : Memref sig .tc .vmem S1024x512 .f32) (harg3 : arg3.IsWhole) (arg4 : Memref sig .tc .vmem S512x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x512 .f32) (x1 : Vec F S512x1024 .bf16) (x2 : Vec F S1x1024 .f32) (xs : Vec F S1024x1024 .f32) (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 xs x1) x2)
            ∗ owns (c : Thread nD τ) arg7 fullShare (k1_pay2 x0 xs x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d6, %f6, -, H6⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · -- the output block: one whole-block store of the new scratch (read back through its own store) plus the bias row
    iexists _; isplitr; rotate_left
    · iexact H6
    ipureintro
    rw [View.read_writes_eq_canon _ _ _ (fun y => ⟨_, List.mem_singleton_self _, View.mem_set_unit_zero off00 inb_S1024x1024_S1024x1024_0_0 y⟩)]
    sl_unfold_words
    rw [View.canon_unit_zero off00]
    simp only [View.readAt_eq_ld, harg3.read_unread, harg4.read_unread, harg5.read_unread, harg7.read_unread,
      View.readCov_unit_zero (S := S1024x1024) _ off00,
      View.ld_unit_zero (S := S1024x512) off00, View.ld_unit_zero (S := S512x1024) off00,
      View.ld_unit_zero (S := S1x1024) off00, View.ld_unit_zero (S := S1024x1024) off00]
  -- the scratch: one whole-block store of the blocks' product added to what it held
  iexists _; isplitr; rotate_left
  · iexact HS
  ipureintro
  sl_unfold_words
  rw [View.read_writes_eq_canon _ _ _ (fun y => ⟨_, List.mem_singleton_self _, View.mem_set_unit_zero off00 inb_S1024x1024_S1024x1024_0_0 y⟩)]
  rw [View.canon_unit_zero off00]
  simp only [View.readAt_eq_ld, harg3.read_unread, harg4.read_unread, harg7.read_unread,
    View.ld_unit_zero (S := S1024x512) off00, View.ld_unit_zero (S := S512x1024) off00,
    View.ld_unit_zero (S := S1024x1024) off00]

end Cert.KernelIdeal.Pipe

end
-- ==== Proof.KI.Region1.lean ====
/-
  The product kernel's body at every grid point, by the point's place on the contraction axis: at coordinate 0 the
  scratch is zeroed first; at every point the product of the point's two blocks is added to the scratch; at coordinate
  7 the scratch plus the bias row is stored over the whole output block.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«156762_j88356067213436_1_alg».proof.Proof.KI.Runs1
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' current staging buffers hold -/

/-- The x window's current buffer holds the point's x block, fetched there or not. -/
theorem before1_0 (c : Dev nD) (t : Fin cfg1.N) (d) : (dat1 (F := F) V c).before 0 t d = iblk1 V c 0 t :=
  ((dat1 (F := F) V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight window's current buffer holds the point's weight block. -/
theorem before1_1 (c : Dev nD) (t : Fin cfg1.N) (d) : (dat1 (F := F) V c).before 1 t d = iblk1 V c 1 t :=
  ((dat1 (F := F) V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The bias window's current buffer holds the point's bias row block, though it is fetched only where the
    contraction coordinate is 0: between fetches its block index does not move. -/
theorem before1_2 (c : Dev nD) (t : Fin cfg1.N) (d) : (dat1 (F := F) V c).before 2 t d = iblk1 V c 2 t :=
  ((dat1 (F := F) V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## Where the output window is idle -/

/-- Away from the last contraction coordinate the output window is idle: the body stores nothing into it. -/
theorem idle1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h

/-- At the last contraction coordinate it is live. -/
theorem live1_3 (t : Fin cfg1.N) (h : cond1_1 (grid1.coords t)) : cfg1.idle 3 (grid1.coords t) = false := by
  show (!(k1_cond2 (grid1.coords t) == 1#1)) = false
  rw [Bool.not_eq_false', beq_iff_eq]; exact h

/-- Away from the last contraction coordinate the output block is not written back. -/
theorem noflush1_3 (t : Fin cfg1.N) (h : ¬t.val % 8 = 7) : (cfg1.win 3).flush t = false := by
  rw [← Bool.not_eq_true]; exact fun hf => h ((flush1_3 t).mp hf)

/-! ## The body obligation, at a generic point -/

/-- Each window's current staging memref at point t, as the pipeline passes it to the body, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- What the body is called with at point t: the invariant, nothing owed, and the four windows' current buffers. -/
def bodyPre1 (c : Dev nD) (t : Fin cfg1.N) : sProp 𝕄 :=
  iprop((dat1 (F := F) V c).Φ t.castSucc ∗ (dat1 (F := F) V c).owesAt () t.castSucc
    ∗ (∃ d, owns (c : Thread nD τ) (ms1_0 t) fullShare ((dat1 (F := F) V c).before 0 t d))
    ∗ (∃ d, owns (c : Thread nD τ) (ms1_1 t) fullShare ((dat1 (F := F) V c).before 1 t d))
    ∗ (∃ d, owns (c : Thread nD τ) (ms1_2 t) fullShare ((dat1 (F := F) V c).before 2 t d))
    ∗ (∃ d, owns (c : Thread nD τ) (ms1_3 t) fullShare ((dat1 (F := F) V c).before 3 t d)))

/-- And what it returns. -/
def bodyPost1 (c : Dev nD) (t : Fin cfg1.N) : sProp 𝕄 :=
  iprop((dat1 (F := F) V c).Φ t.succ ∗ (dat1 (F := F) V c).owesAt () t.succ
    ∗ (dat1 (F := F) V c).leavesExact 0 t
    ∗ (dat1 (F := F) V c).leavesExact 1 t
    ∗ (dat1 (F := F) V c).leavesExact 2 t
    ∗ (dat1 (F := F) V c).leavesExact 3 t)

/-- An input window is live everywhere, so the body leaves its buffer at the proof data's contents: its block. -/
theorem leaves1_0 (c : Dev nD) (t : Fin cfg1.N) :
    (dat1 (F := F) V c).leavesExact 0 t = owns (c : Thread nD τ) (ms1_0 t) fullShare (iblk1 V c 0 t) := by
  rw [← after1_0]
theorem leaves1_1 (c : Dev nD) (t : Fin cfg1.N) :
    (dat1 (F := F) V c).leavesExact 1 t = owns (c : Thread nD τ) (ms1_1 t) fullShare (iblk1 V c 1 t) := by
  rw [← after1_1]
theorem leaves1_2 (c : Dev nD) (t : Fin cfg1.N) :
    (dat1 (F := F) V c).leavesExact 2 t = owns (c : Thread nD τ) (ms1_2 t) fullShare (iblk1 V c 2 t) := by
  rw [← after1_2]
/-- At the last contraction coordinate the output window is live: its buffer is left at the scratch plus the bias. -/
theorem leaves1_3 (c : Dev nD) (t : Fin cfg1.N) (h : cond1_1 (grid1.coords t)) :
    (dat1 (F := F) V c).leavesExact 3 t
      = owns (c : Thread nD τ) (ms1_3 t) fullShare (k1_pay3 (accAt V c t.val t.isLt) (iblk1 V c 2 t)) := by
  rw [← after1_3]; unfold Dat.leavesExact; rw [live1_3 t h]

set_option maxHeartbeats 4800000 in
/-- The body at any point. The input buffers hold their blocks; the point's place on the contraction axis says which
    run applies. The invariant hands the body the scratch at what the point before left in it (at anything before the
    first point) and takes it back at this point's accumulation; the six foreign staging buffers and the generator
    register pass through untouched. The output buffer is handed back as found away from the last contraction
    coordinate, and at the scratch plus the bias row there. -/
theorem sound_body1 (c : Dev nD) (t : Fin cfg1.N) :
    bodyPre1 (F := F) V c t ⊢ wp frame (wpE (defs₀ (F := F)) Variants.none c none) Set.univ (bodyAt1 t)
      (fun _ => bodyPost1 (F := F) V c t) := by
  unfold bodyPre1 bodyPost1 bodyAt1
  simp only [before1_0, before1_1, before1_2]
  rw [show (dat1 (F := F) V c).owesAt () t.succ = (dat1 (F := F) V c).owesAt () t.castSucc from rfl]
  rw [show (dat1 (F := F) V c).Φ t.succ = PhiS V c (t.val + 1) t.isLt from rfl, PhiS_succ]
  rw [leaves1_0, leaves1_1, leaves1_2]
  by_cases h0 : t.val % 8 = 0
  · -- contraction coordinate 0: the accumulation restarts
    have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 (F := F) V c) 3 t (idle1_3 t hc1) (noflush1_3 t h1)]
    rw [accAt_reset V c t h0]
    by_cases hz : t.val = 0
    · rw [PhiS_castSucc V c t, PhiS_zero V c _ _ hz, PhiA1_eq]
      unfold withScratch
      iintro ⟨⟨⟨G1, G2, G3, G4, G5, G6, HS⟩, Hg⟩, Ho, ⟨%d0, H0⟩, ⟨%d1, H1⟩, ⟨%d2, H2⟩, ⟨%d3, H3⟩⟩
      iapply (run1_A (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) Set.univ _)
      isplitl [H0]; · iexact H0
      isplitl [H1]; · iexact H1
      isplitl [HS]; · iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold withScratch
      iintro ⟨⟨⟨G1, G2, G3, G4, G5, G6, HS⟩, Hg⟩, Ho, ⟨%d0, H0⟩, ⟨%d1, H1⟩, ⟨%d2, H2⟩, ⟨%d3, H3⟩⟩
      iapply (run1_A (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) Set.univ _)
      isplitl [H0]; · iexact H0
      isplitl [H1]; · iexact H1
      isplitl [HS]; · iexists _; iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond1_0 (grid1.coords t) := fun h => h0 ((hcond1_0 t).mp h)
    rw [accAt_step V c t h0]
    rw [PhiS_castSucc V c t, PhiS_pos V c _ _ hz]
    unfold withScratch
    by_cases h1 : t.val % 8 = 7
    · -- contraction coordinate 7: the output block is stored
      have hc1 : cond1_1 (grid1.coords t) := (hcond1_1 t).mpr h1
      rw [leaves1_3 V c t hc1, accAt_step V c t h0]
      iintro ⟨⟨⟨G1, G2, G3, G4, G5, G6, HS⟩, Hg⟩, Ho, ⟨%d0, H0⟩, ⟨%d1, H1⟩, ⟨%d2, H2⟩, ⟨%d3, H3⟩⟩
      iapply (run1_C (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t) (iblk1 V c 2 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexact H3
    · -- a middle contraction coordinate: the product is added to the scratch, nothing else
      have hc1 : ¬cond1_1 (grid1.coords t) := fun h => h1 ((hcond1_1 t).mp h)
      rw [Dat.leavesExact_idle (dat1 (F := F) V c) 3 t (idle1_3 t hc1) (noflush1_3 t h1)]
      iintro ⟨⟨⟨G1, G2, G3, G4, G5, G6, HS⟩, Hg⟩, Ho, ⟨%d0, H0⟩, ⟨%d1, H1⟩, ⟨%d2, H2⟩, ⟨%d3, H3⟩⟩
      iapply (run1_B (F := F) c (grid1.coords t) (ms1_0 t) (hs1_0 t) (ms1_1 t) (hs1_1 t) (ms1_2 t) (hs1_2 t) (ms1_3 t) (hs1_3 t)
        scM (Memref.isWhole_whole _) hc0 hc1 (iblk1 V c 0 t) (iblk1 V c 1 t)
        (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [G1 G2 G3 G4 G5 G6 HS Hg]
      · isplitr [Hg]
        · isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3

/-- The library's body obligation of the product kernel's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 (F := F) V c).Φ 0 = PhiS V c 0 (Nat.zero_le _) from rfl, PhiS_zero V c 0 _ rfl]

/-- After the last point the invariant gives the class's back: the scratch's named contents are forgotten. -/
theorem hout1 (c : Dev nD) : (dat1 (F := F) V c).Φ (Fin.last cfg1.N) ⊢ (Pipeline.ΦA spec1 c : sProp 𝕄) := by
  rw [show (dat1 (F := F) V c).Φ (Fin.last cfg1.N)
      = PhiS V c (Fin.last cfg1.N).val (Nat.le_of_lt_succ (Fin.last cfg1.N).isLt) from rfl,
    PhiS_pos V c _ _ (by rw [Fin.val_last]; have : cfg1.N = 256 := N_1; omega), PhiA1_eq]
  unfold withScratch
  iintro ⟨⟨G1, G2, G3, G4, G5, G6, HS⟩, Hg⟩
  isplitr [Hg]
  · isplitl [G1]; · iexact G1
    isplitl [G2]; · iexact G2
    isplitl [G3]; · iexact G3
    isplitl [G4]; · iexact G4
    isplitl [G5]; · iexact G5
    isplitl [G6]; · iexact G6
    iexists _; iexact HS
  iexact Hg

end Cert.KernelIdeal.Pipe

end
-- ==== Proof.KI.Launch.lean ====
/-
  The whole program's run: @main is the weight kernel's region, one host operation (the bias reshaped to a row), and
  the product kernel's region. Between two items a core holds every unscoped buffer whole at a valuation: the launch
  memory, then the weight array at what the first region's write-backs leave, then the reshaped bias, then the result
  array at what the second region's write-backs leave. Every weakly fair execution terminates with every unscoped
  buffer at the last valuation; the four arguments are read back through the fold to their launch contents.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«156762_j88356067213436_1_alg».proof.Proof.KI.Region0
import proofs.«156762_j88356067213436_1_alg».proof.Proof.KI.Region1
import proofs.«156762_j88356067213436_1_alg».proof.Proof.LibClassARegion
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- Core `c`'s buffers at launch. -/
abbrev B0 : Dev nD → Valuation τ sig (Elt F) := fun c b => m ((c : Dev nD), b)
/-- The same read at the TensorCore's references: what the weight kernel's proof data take. -/
abbrev E0 : (c : Dev nD) → (b : Ref sig .tc) → Buf (Elt F) ((c : Thread nD τ).loc b) := fun c b => B0 m c b

/-- After the weight kernel's region: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the host operation (the bias as a row): the product kernel's entry. -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b

/-- After the product kernel's region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- The host operation writes only the bias row's buffer. -/
theorem B2_of_ne (c : Dev nD) (b : Ref sig .tc) (hb : b ≠ main_v1) :
    B2 m c (Proc.devRef .tc b) = B1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := B2_of_ne m c main_arg0 (by decide)
    _ = B0 m c (Proc.devRef .tc main_arg0) := B1_of_ne m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := (B1_arr m c 0).trans (((dat0 (E0 m) c).arrAt_in 0 rfl _).trans (A_eq0 (E0 m) c 0))
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := (B1_arr m c 1).trans (((dat0 (E0 m) c).arrAt_in 1 rfl _).trans (A_eq0 (E0 m) c 1))
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := B1_of_ne m c main_arg3 (by decide)
    _ = m ((c : Thread nD τ).loc main_arg3) := rfl

/-! ## The proof data family and the items as segments -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0

theorem hostOps1_fresh : (hostOps1 : List (HloOp τ sig (Elt F))).Forall fun op => op.fresh = ∅ := by
  simp only [List.Forall]; repeat' constructor

/-- No pipeline prefetches a table. -/
theorem noPref (p : Fin 2) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
/-- The weight kernel's region: entered from the launch contents, left with the weight array written. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (E0 m) c) (fun _ _ => rfl) (fun _ _ => rfl) (fun _ _ => rfl)
    (fun c => .rfl) (fun c => .rfl) (noPref 0) (B0 m) (B1 m) (fun c w => rfl) (hF0 m) (hrest0 m)

set_option backward.isDefEq.respectTransparency.types false in
/-- The product kernel's region: entered after the host operation, left with the result array written. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (E2 m) c) (fun _ _ => rfl) (fun _ _ => rfl) (fun _ _ => rfl)
    (fun c => hin1 (E2 m) c) (fun c => hout1 (E2 m) c) (noPref 1) (B2 m) (B3 m) (fun c w => rfl) (hF1 m) (hrest1 m)

/-- The host operation as a segment over the unscoped buffers, the generator register and the core's debts riding along. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) (Pipeline.ClassA.rides (U' := UR sig nD τ))

abbrev segs : List (Pipeline.Seg (pcfgs (F := F)) adm (pdats m) () defs₀ 𝒱₀ L lv) :=
  [ .region (reg0 m), .host (hseg m), .region (reg1 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last valuation, the generator register at some state. -/
abbrev Tₙ (c : Dev nD) : sProp 𝕄 := iprop(StableHlo.held (c : Thread nD τ) (Pipeline.ucRefs τ sig) (B3 m c) ∗ ∃ r, prngReg c r)

set_option backward.isDefEq.respectTransparency.types false in
/-- THE RUN. Every weakly fair execution of @main terminates, nothing faulting, and in every final memory every
    unscoped buffer of every core holds the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between (U' := UR sig nD τ) c (B0 m c)) (Tₙ := Tₙ m)
    (hch := ⟨fun _ => .rfl, fun _ => .rfl, fun _ => .rfl, fun c => by
      show Pipeline.ClassA.between (U' := UR sig nD τ) c (B3 m c) ⊢ iprop(Tₙ m c ∗ ∃ W, owes (c : Thread nD τ) (0 : CellTallies nD τ sig Unit) W)
      unfold Pipeline.ClassA.between Pipeline.ClassA.rides
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c)⟩) (run_all m ρ)

/-- The run with the result array named: what the product kernel's write-backs leave, beside the arguments as launched. -/
theorem run_result : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (B3_arr m c 3),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c)⟩) (run_all m ρ)

/-- What the product kernel's region is entered with: the arguments as launched, the weight array as the first region
    left it, the bias row as the host operation wrote it. -/
theorem E2_main_arg0 (c : Dev nD) : E2 m c main_arg0 = m ((c : Thread nD τ).loc main_arg0) :=
  (B2_of_ne m c main_arg0 (by decide)).trans ((B1_of_ne m c main_arg0 (by decide)).trans rfl)
theorem E2_main_v0 (c : Dev nD) : E2 m c main_v0 = (dat0 (E0 m) c).arrAt 2 cfg0.N :=
  (B2_of_ne m c main_v0 (by decide)).trans (B1_arr m c 2)
theorem E2_main_v1 (c : Dev nD) :
    E2 m c main_v1 = shapeCast S1x4096 (m ((c : Thread nD τ).loc main_arg3)) shapeCasts_S4096_S1x4096 := by
  have e : B2 m c (Proc.devRef .tc main_v1)
      = shapeCast S1x4096 (B1 m c (Proc.devRef .tc main_arg3)) shapeCasts_S4096_S1x4096 := by
    show StableHlo.after hostOps1 (B1 m c) (Proc.devRef .tc main_v1) = _
    after_results
    rfl
  exact e.trans (congrArg (fun a => shapeCast S1x4096 a shapeCasts_S4096_S1x4096) ((B1_of_ne m c main_arg3 (by decide)).trans rfl))

end Cert.KernelIdeal.Pipe

end
-- ==== Proof.Spec.lean ====
/-
  What the program computes, as functions of its four arguments on the extended reals, and the one law that joins the
  blocked form to the plain one.

  The result is x · (U · Vt) + bias: entry (i, j) is the sum over k < 4096 of x[i, k] times the weight W[k, j], plus
  bias[j], where W[k, j] is the sum over r < 64 of U[k, r] times Vt[r, j]. The kernel contracts k in 8 blocks of 512,
  adding each block's partial sum to an accumulator that starts at zero: the same sum regrouped, which on the extended
  reals needs only that addition is commutative and associative (no finiteness).
-/
import Idealize.ShloMosaic.PureOps.Ideal
import Idealize.ShloMosaic.Lib.ValueIdx
import Mathlib.Algebra.BigOperators.Fin
import Mathlib.Algebra.BigOperators.Group.Finset.Basic

noncomputable section

namespace LowRankSpec

open Idealize.ShloMosaic Idealize.ShloMosaic.ValueIdx

abbrev SX : Shape := ⟨2, ![8192, 4096]⟩
abbrev SU : Shape := ⟨2, ![4096, 64]⟩
abbrev SVt : Shape := ⟨2, ![64, 4096]⟩
abbrev SW : Shape := ⟨2, ![4096, 4096]⟩
abbrev SB : Shape := ⟨1, ![4096]⟩
abbrev SB2 : Shape := ⟨2, ![1, 4096]⟩

/-- The dense weight: W[k, j] = Σ_r U[k, r] · Vt[r, j]. -/
def weight (u : SU.Idx → EReal) (vt : SVt.Idx → EReal) : SW.Idx → EReal :=
  fun i => ∑ r : Fin 64, u (ix2 (i 0) r) * vt (ix2 r (i 1))

/-- The product with a weight matrix plus a bias kept as a 1 × 4096 row: out[i, j] = Σ_k x[i, k] · w[k, j] + b[0, j]. -/
def out (x : SX.Idx → EReal) (w : SW.Idx → EReal) (b : SB2.Idx → EReal) : SX.Idx → EReal :=
  fun i => (∑ k : Fin 4096, x (ix2 (i 0) k) * w (ix2 k (i 1))) + b (ix2 (0 : Fin 1) (i 1))

/-- The whole result from the four arguments. -/
def result (x : SX.Idx → EReal) (u : SU.Idx → EReal) (vt : SVt.Idx → EReal) (b : SB.Idx → EReal) : SX.Idx → EReal :=
  fun i => (∑ k : Fin 4096, x (ix2 (i 0) k) * weight u vt (ix2 k (i 1))) + b (ix1 (i 1))

/-- Position `kb · 512 + kk` of the contraction axis, from its block `kb` and its place `kk` inside the block. -/
def kIdx (kb : Fin 8) (kk : Fin 512) : Fin 4096 := ⟨kb.val * 512 + kk.val, by have := kb.isLt; have := kk.isLt; omega⟩

/-- Block and place together name each of the 4096 positions exactly once: the quotient and the remainder by 512. -/
private def blockEquiv : Fin 8 × Fin 512 ≃ Fin 4096 where
  toFun p := kIdx p.1 p.2
  invFun k := (⟨k.val / 512, by have := k.isLt; omega⟩, ⟨k.val % 512, by omega⟩)
  left_inv p := by
    obtain ⟨a, b⟩ := p
    have ha := a.isLt
    have hb := b.isLt
    refine Prod.ext (Fin.ext ?_) (Fin.ext ?_)
    · show (a.val * 512 + b.val) / 512 = a.val
      omega
    · show (a.val * 512 + b.val) % 512 = b.val
      omega
  right_inv k := Fin.ext (by
    show k.val / 512 * 512 + k.val % 512 = k.val
    omega)

/-- REGROUPING. A sum over the 4096 contraction positions is the sum over the 8 blocks of the sums inside each block. -/
theorem sum_blocks (f : Fin 4096 → EReal) : (∑ k : Fin 4096, f k) = ∑ kb : Fin 8, ∑ kk : Fin 512, f (kIdx kb kk) := by
  rw [← Equiv.sum_comp blockEquiv f, Fintype.sum_prod_type]
  rfl

end LowRankSpec

end
-- ==== Proof.KI.Value0.lean ====
/-
  What the weight kernel leaves in the weight array, on the extended reals: every 1024x1024 block written back is the
  block of ONE whole-array function, W[k, j] = Σ_r U[k, r] · Vt[r, j], and the 16 blocks tile the array.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«156762_j88356067213436_1_alg».proof.Proof.KI.Data
import proofs.«156762_j88356067213436_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

/-- The left operand's row coordinate at an output entry is the entry's row. -/
private theorem uv_lhs_row (j : S1024x1024.Idx) (q : Cert.KernelIdeal.dot_S1024x64_S64x1024_S1024x1024_1_0_0_1_n_n.contr.Idx) :
    (Cert.KernelIdeal.dot_S1024x64_S64x1024_S1024x1024_1_0_0_1_n_n.lhsIdx j q 0).val = (j 0).val := by
  unfold DotDims.lhsIdx
  rw [dif_neg (show ¬(0 : Fin S1024x64.rank) ∈ Cert.KernelIdeal.dot_S1024x64_S64x1024_S1024x1024_1_0_0_1_n_n.lhsBatch by decide), dif_pos (show (0 : Fin S1024x64.rank) ∈ Cert.KernelIdeal.dot_S1024x64_S64x1024_S1024x1024_1_0_0_1_n_n.lhsNonContracting by decide)]
  rfl
/-- The left operand's column coordinate is the contraction position. -/
private theorem uv_lhs_contr (j : S1024x1024.Idx) (q : Cert.KernelIdeal.dot_S1024x64_S64x1024_S1024x1024_1_0_0_1_n_n.contr.Idx) :
    (Cert.KernelIdeal.dot_S1024x64_S64x1024_S1024x1024_1_0_0_1_n_n.lhsIdx j q 1).val = (q ⟨0, by decide⟩).val :=
  Cert.KernelIdeal.dot_S1024x64_S64x1024_S1024x1024_1_0_0_1_n_n.lhsIdx_val_of_single rfl j q
/-- The right operand's row coordinate is the contraction position. -/
private theorem uv_rhs_contr (j : S1024x1024.Idx) (q : Cert.KernelIdeal.dot_S1024x64_S64x1024_S1024x1024_1_0_0_1_n_n.contr.Idx) :
    (Cert.KernelIdeal.dot_S1024x64_S64x1024_S1024x1024_1_0_0_1_n_n.rhsIdx j q 0).val = (q ⟨0, by decide⟩).val :=
  Cert.KernelIdeal.dot_S1024x64_S64x1024_S1024x1024_1_0_0_1_n_n.rhsIdx_val_of_single rfl j q
/-- The right operand's column coordinate at an output entry is the entry's column. -/
private theorem uv_rhs_col (j : S1024x1024.Idx) (q : Cert.KernelIdeal.dot_S1024x64_S64x1024_S1024x1024_1_0_0_1_n_n.contr.Idx) :
    (Cert.KernelIdeal.dot_S1024x64_S64x1024_S1024x1024_1_0_0_1_n_n.rhsIdx j q 1).val = (j 1).val := by
  unfold DotDims.rhsIdx
  rw [dif_neg (show ¬(1 : Fin S64x1024.rank) ∈ Cert.KernelIdeal.dot_S1024x64_S64x1024_S1024x1024_1_0_0_1_n_n.rhsBatch by decide), dif_pos (show (1 : Fin S64x1024.rank) ∈ Cert.KernelIdeal.dot_S1024x64_S64x1024_S1024x1024_1_0_0_1_n_n.rhsNonContracting by decide)]
  rfl

/-- The product of a 1024x64 block and a 64x1024 block, entry by entry. -/
private theorem uvProduct_entry (u : Vec Ideal S1024x64 .f32) (v : Vec Ideal S64x1024 .f32) (p q : Fin 1024) :
    (k0_pay1 (F := Ideal) u v) (ix2 p q) = ∑ r : Fin 64, u (ix2 p r) * v (ix2 r q) := by
  unfold k0_pay1
  simp only [matmul]
  rw [truncf_apply, Ideal.matmul_constant_zero_apply]
  simp only [truncf_apply]
  rw [← Equiv.sum_comp (ValueIdx.contrEquiv1 Cert.KernelIdeal.dot_S1024x64_S64x1024_S1024x1024_1_0_0_1_n_n 64 rfl rfl).symm]
  refine Finset.sum_congr rfl fun k _ => ?_
  have hk := ValueIdx.contrEquiv1_symm_val Cert.KernelIdeal.dot_S1024x64_S64x1024_S1024x1024_1_0_0_1_n_n 64 rfl rfl k
  have el : Cert.KernelIdeal.dot_S1024x64_S64x1024_S1024x1024_1_0_0_1_n_n.lhsIdx (ix2 p q) ((ValueIdx.contrEquiv1 Cert.KernelIdeal.dot_S1024x64_S64x1024_S1024x1024_1_0_0_1_n_n 64 rfl rfl).symm k) = ix2 p k := funext fun a => Fin.ext (by
    match a with
    | ⟨0, _⟩ => exact uv_lhs_row _ _
    | ⟨1, _⟩ => exact (uv_lhs_contr _ _).trans hk)
  have er : Cert.KernelIdeal.dot_S1024x64_S64x1024_S1024x1024_1_0_0_1_n_n.rhsIdx (ix2 p q) ((ValueIdx.contrEquiv1 Cert.KernelIdeal.dot_S1024x64_S64x1024_S1024x1024_1_0_0_1_n_n 64 rfl rfl).symm k) = ix2 k q := funext fun a => Fin.ext (by
    match a with
    | ⟨0, _⟩ => exact (uv_rhs_contr _ _).trans hk
    | ⟨1, _⟩ => exact uv_rhs_col _ _)
  rw [el, er]

/-- The block-index maps over the 16 points: the left factor's row block is the output's, the right factor's column
    block is the output's, and neither factor is split along the contraction axis. -/
private theorem blockIndex_rel : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 x 4 output blocks is some point's. -/
private theorem blockIndex_onto : ∀ (a b : Fin 4), ∃ t : Fin cfg0.N, win0_2.index t = ![a.val, b.val] :=
  (by decide +kernel : ∀ (a b : Fin 4), ∃ t : Fin grid0.N, win0_2.index t = ![a.val, b.val])

/-- One entry of a block product is the dense weight's entry, once the two blocks' rows and columns are those of the
    factor arrays at the entry's row and column. -/
private theorem blockProduct_entry (A : S4096x64.Idx → EReal) (B : S64x4096.Idx → EReal)
    (u : Vec Ideal S1024x64 .f32) (v : Vec Ideal S64x1024 .f32) (j : S1024x1024.Idx) (k : S4096x4096.Idx)
    (hu : ∀ r : Fin 64, u (ix2 (j 0) r) = A (ix2 (k 0) r))
    (hv : ∀ r : Fin 64, v (ix2 r (j 1)) = B (ix2 r (k 1))) :
    k0_pay1 (F := Ideal) u v j = LowRankSpec.weight A B k := by
  obtain ⟨p, q, rfl⟩ : ∃ (p q : Fin 1024), j = ix2 p q := ⟨j 0, j 1, eq_ix2 j⟩
  have hu' : ∀ r : Fin 64, u (ix2 p r) = A (ix2 (k 0) r) := hu
  have hv' : ∀ r : Fin 64, v (ix2 r q) = B (ix2 r (k 1)) := hv
  rw [uvProduct_entry]
  unfold LowRankSpec.weight
  exact Finset.sum_congr rfl fun r _ => by rw [hu', hv']

/-- What a point writes back is its block of the dense weight of the two factor arrays. -/
private theorem flushed0_eq (c : Dev nD) (t : Fin cfg0.N) :
    (dat0 (F := Ideal) V c).flushed 2 t
      = ((cfg0.win 2).blk t).view.read (Elt Ideal) (LowRankSpec.weight (V c main_arg1) (V c main_arg2)) := by
  show (cfg0.win 2).cut (grid0.coords t) ((dat0 (F := Ideal) V c).after 2 t) = _
  rw [after0_2]
  obtain ⟨e0, e1, e2, e3, e4, e5⟩ := blockIndex_rel t
  funext j
  show k0_pay1 (F := Ideal) (iblk0 V c 0 t) (iblk0 V c 1 t) j
    = LowRankSpec.weight (V c main_arg1) (V c main_arg2) (((cfg0.win 2).blk t).view.emb j)
  refine blockProduct_entry (V c main_arg1) (V c main_arg2) _ _ j _ (fun r => ?_) (fun r => ?_)
  · show V c main_arg1 (((cfg0.win 0).blk t).view.emb (ix2 (j 0) r)) = _
    refine congrArg _ (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 64 + 1 * r.val = r.val; omega
  · show V c main_arg2 (((cfg0.win 1).blk t).view.emb (ix2 r (j 1))) = _
    refine congrArg _ (funext fun a => Fin.ext ?_)
    match a with
    | ⟨0, _⟩ => show win0_1.index t (0 : Fin 2) * 64 + 1 * r.val = r.val; omega
    | ⟨1, _⟩ => show win0_1.index t (1 : Fin 2) * 1024 + 1 * (j 1).val = win0_2.index t (1 : Fin 2) * 1024 + 1 * (j 1).val; omega

/-- An index of the weight array is in a point's block iff each coordinate is in the block's range on its axis. -/
private theorem mem_block0 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The 16 blocks tile the array: entry (k, j) lies in the block whose indices are (k / 1024, j / 1024). -/
private theorem covered0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := blockIndex_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The weight array after the region is the dense weight of the two factor arrays as the region found them. -/
theorem final0 (c : Dev nD) :
    ((dat0 (F := Ideal) V c).arrAt 2 cfg0.N : S4096x4096.Idx → EReal)
      = LowRankSpec.weight (V c main_arg1) (V c main_arg2) :=
  (dat0 (F := Ideal) V c).arrAt_eq_of_cover 2 (LowRankSpec.weight (V c main_arg1) (V c main_arg2))
    (fun t _ => flushed0_eq V c t) covered0

end Cert.KernelIdeal.Pipe

end
-- ==== Proof.KI.Value1.lean ====
/-
  What the product kernel leaves in the result array, on the extended reals: along the contraction axis the scratch
  holds the partial sums over the blocks met so far, so at the last block it holds the whole sum; every 1024x1024
  block written back is then the block of ONE whole-array function, out[i, j] = Σ_k x[i, k] · w[k, j] + b[0, j], and
  the 32 written blocks tile the array.
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«156762_j88356067213436_1_alg».proof.Proof.KI.Data
import proofs.«156762_j88356067213436_1_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The three payloads at an index -/

/-- The restart value is zero everywhere. -/
private theorem restart_apply (j : S1024x1024.Idx) : (k1_pay1 (F := Ideal)) j = 0 := by
  unfold k1_pay1
  simp only [shapeCast_self]
  show Ideal.ofBits .f32 0x00000000#32 = 0
  exact Ideal.ofBits_zero_f32

private abbrev DD := dot_S1024x512_S512x1024_S1024x1024_1_0_0_1_n_n

private theorem dd_lhs0 (j : S1024x1024.Idx) (r : DD.contr.Idx) : (DD.lhsIdx j r 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
private theorem dd_lhs1 (j : S1024x1024.Idx) (r : DD.contr.Idx) : (DD.lhsIdx j r 1).val = (r ⟨0, by decide⟩).val :=
  dot_S1024x512_S512x1024_S1024x1024_1_0_0_1_n_n.lhsIdx_val_of_single rfl j r
private theorem dd_rhs0 (j : S1024x1024.Idx) (r : DD.contr.Idx) : (DD.rhsIdx j r 0).val = (r ⟨0, by decide⟩).val :=
  dot_S1024x512_S512x1024_S1024x1024_1_0_0_1_n_n.rhsIdx_val_of_single rfl j r
private theorem dd_rhs1 (j : S1024x1024.Idx) (r : DD.contr.Idx) : (DD.rhsIdx j r 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- One step: the accumulator plus the product of the point's two blocks, entry by entry. -/
private theorem step_apply (x : Vec Ideal S1024x512 .f32) (a : Vec Ideal S1024x1024 .f32) (w : Vec Ideal S512x1024 .bf16)
    (p q : Fin 1024) :
    k1_pay2 x a w (ix2 p q) = a (ix2 p q) + ∑ kk : Fin 512, x (ix2 p kk) * w (ix2 kk q) := by
  unfold k1_pay2
  simp only [shapeCast_self]
  rw [addf_apply]
  congr 1
  show FloatOps.matmul dot_S1024x512_S512x1024_S1024x1024_1_0_0_1_n_n none _ _ (constant S1024x1024 .f32 0x00000000#32) (ix2 p q) = _
  rw [Ideal.matmul_constant_zero_apply,
    ← Equiv.sum_comp (contrEquiv1 dot_S1024x512_S512x1024_S1024x1024_1_0_0_1_n_n 512 rfl rfl).symm]
  refine Finset.sum_congr rfl fun kk _ => ?_
  have hk := contrEquiv1_symm_val dot_S1024x512_S512x1024_S1024x1024_1_0_0_1_n_n 512 rfl rfl kk
  have el : dot_S1024x512_S512x1024_S1024x1024_1_0_0_1_n_n.lhsIdx (ix2 p q)
      ((contrEquiv1 dot_S1024x512_S512x1024_S1024x1024_1_0_0_1_n_n 512 rfl rfl).symm kk) = ix2 p kk :=
    funext fun d => Fin.ext (by
      match d with
      | ⟨0, _⟩ => exact dd_lhs0 _ _
      | ⟨1, _⟩ => exact (dd_lhs1 _ _).trans hk)
  have er : dot_S1024x512_S512x1024_S1024x1024_1_0_0_1_n_n.rhsIdx (ix2 p q)
      ((contrEquiv1 dot_S1024x512_S512x1024_S1024x1024_1_0_0_1_n_n 512 rfl rfl).symm kk) = ix2 kk q :=
    funext fun d => Fin.ext (by
      match d with
      | ⟨0, _⟩ => exact (dd_rhs0 _ _).trans hk
      | ⟨1, _⟩ => exact dd_rhs1 _ _)
  rw [el, er]
  rfl

/-- The epilogue: the accumulator plus the bias row, broadcast down the rows. -/
private theorem epilogue_apply (a : Vec Ideal S1024x1024 .f32) (b : Vec Ideal S1x1024 .f32) (p q : Fin 1024) :
    k1_pay3 a b (ix2 p q) = a (ix2 p q) + b (ix2 (0 : Fin 1) q) := by
  unfold k1_pay3
  simp only [shapeCast_self]
  rw [addf_apply]
  congr 1
  exact broadcastTo_apply _ broadcasts_S1x1024_S1024x1024 (ix2 p q) (ix2 (0 : Fin 1) q) (fun d => match d with
    | ⟨0, _⟩ => by show 0 = if (1 : Nat) = 1 then 0 else _; rw [if_pos rfl]
    | ⟨1, _⟩ => by show q.val = if (1024 : Nat) = 1 then 0 else q.val; rw [if_neg (by decide)])

/-! ## The blocks of a point, read off the arrays -/

/-- The block indices of the four windows at point `t`, with `t = (i·4 + j)·8 + k`: the left operand's block is
    (i, k), the weight's (k, j), the bias row's (0, j), the result's (i, j). -/
private theorem block_indices : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- The left operand's block at a point, entry by entry. -/
private theorem left_apply (c : Dev nD) (t : Fin cfg1.N) (p : Fin 1024) (kk : Fin 512)
    (r : Fin 8192) (k : Fin 4096) (hr : r.val = t.val / 32 * 1024 + p.val) (hk : k.val = t.val % 8 * 512 + kk.val) :
    (iblk1 V c 0 t : Vec Ideal S1024x512 .f32) (ix2 p kk) = V c main_arg0 (ix2 r k) := by
  obtain ⟨e0, e1, -⟩ := block_indices t
  unfold iblk1
  rw [View.read_apply]
  show V c main_arg0 _ = V c main_arg0 _
  congr 1
  funext d
  apply Fin.ext
  match d with
  | ⟨0, _⟩ => show win1_0.index t (0 : Fin 2) * 1024 + 1 * p.val = r.val; rw [e0, hr]; omega
  | ⟨1, _⟩ => show win1_0.index t (1 : Fin 2) * 512 + 1 * kk.val = k.val; rw [e1, hk]; omega

/-- The weight's block at a point, entry by entry. -/
private theorem weight_apply (c : Dev nD) (t : Fin cfg1.N) (kk : Fin 512) (q : Fin 1024)
    (k : Fin 4096) (cl : Fin 4096) (hk : k.val = t.val % 8 * 512 + kk.val) (hc : cl.val = t.val / 8 % 4 * 1024 + q.val) :
    (iblk1 V c 1 t : Vec Ideal S512x1024 .bf16) (ix2 kk q) = V c main_v0 (ix2 k cl) := by
  obtain ⟨-, -, e2, e3, -⟩ := block_indices t
  unfold iblk1
  rw [View.read_apply]
  show V c main_v0 _ = V c main_v0 _
  congr 1
  funext d
  apply Fin.ext
  match d with
  | ⟨0, _⟩ => show win1_1.index t (0 : Fin 2) * 512 + 1 * kk.val = k.val; rw [e2, hk]; omega
  | ⟨1, _⟩ => show win1_1.index t (1 : Fin 2) * 1024 + 1 * q.val = cl.val; rw [e3, hc]; omega

/-- The bias row's block at a point, entry by entry. -/
private theorem bias_apply (c : Dev nD) (t : Fin cfg1.N) (q : Fin 1024)
    (cl : Fin 4096) (hc : cl.val = t.val / 8 % 4 * 1024 + q.val) :
    (iblk1 V c 2 t : Vec Ideal S1x1024 .f32) (ix2 (0 : Fin 1) q) = V c main_v1 (ix2 (0 : Fin 1) cl) := by
  obtain ⟨-, -, -, -, e4, e5, -⟩ := block_indices t
  unfold iblk1
  rw [View.read_apply]
  show V c main_v1 _ = V c main_v1 _
  congr 1
  funext d
  apply Fin.ext
  match d with
  | ⟨0, _⟩ => show win1_2.index t (0 : Fin 2) * 1 + 1 * 0 = 0; rw [e4]
  | ⟨1, _⟩ => show win1_2.index t (1 : Fin 2) * 1024 + 1 * q.val = cl.val; rw [e5, hc]; omega

/-! ## What the scratch holds after each point -/

/-- The left operand and the weight as the region finds them, as functions into the extended reals. -/
private abbrev xArr (c : Dev nD) : S8192x4096.Idx → EReal := V c main_arg0
private abbrev wArr (c : Dev nD) : S4096x4096.Idx → EReal := V c main_v0

/-- The partial sum of contraction block `kb` for the result entry (r, cl); zero past the eight blocks. -/
private def blockSum (c : Dev nD) (r : Fin 8192) (cl : Fin 4096) (kb : ℕ) : EReal :=
  if h : kb < 8 then
    ∑ kk : Fin 512, xArr V c (ix2 r (LowRankSpec.kIdx ⟨kb, h⟩ kk)) * wArr V c (ix2 (LowRankSpec.kIdx ⟨kb, h⟩ kk) cl)
  else 0

/-- At a point whose contraction coordinate is 0 the scratch holds the first block's partial sum. -/
private theorem acc_restart (c : Dev nD) (p q : Fin 1024) (r : Fin 8192) (cl : Fin 4096) (t : Fin cfg1.N)
    (h8 : t.val % 8 = 0) (hr : r.val = t.val / 32 * 1024 + p.val) (hc : cl.val = t.val / 8 % 4 * 1024 + q.val) :
    accAt V c t.val t.isLt (ix2 p q) = blockSum V c r cl 0 := by
  rw [accAt_reset V c t h8, step_apply, restart_apply, zero_add]
  unfold blockSum
  rw [dif_pos (by decide : 0 < 8)]
  refine Finset.sum_congr rfl fun kk _ => ?_
  rw [left_apply V c t p kk r (LowRankSpec.kIdx ⟨0, by decide⟩ kk) hr
      (by show 0 * 512 + kk.val = t.val % 8 * 512 + kk.val; rw [h8]),
    weight_apply V c t kk q (LowRankSpec.kIdx ⟨0, by decide⟩ kk) cl
      (by show 0 * 512 + kk.val = t.val % 8 * 512 + kk.val; rw [h8]) hc]

/-- At any other point it holds what the point before left plus the point's own block's partial sum. -/
private theorem acc_continue (c : Dev nD) (p q : Fin 1024) (r : Fin 8192) (cl : Fin 4096) (t : Fin cfg1.N)
    (h8 : ¬t.val % 8 = 0) (hr : r.val = t.val / 32 * 1024 + p.val) (hc : cl.val = t.val / 8 % 4 * 1024 + q.val) :
    accAt V c t.val t.isLt (ix2 p q)
      = accAt V c (t.val - 1) (Nat.lt_of_le_of_lt (Nat.sub_le _ _) t.isLt) (ix2 p q) + blockSum V c r cl (t.val % 8) := by
  rw [accAt_step V c t h8, step_apply]
  congr 1
  unfold blockSum
  rw [dif_pos (Nat.mod_lt _ (by decide))]
  refine Finset.sum_congr rfl fun kk _ => ?_
  rw [left_apply V c t p kk r (LowRankSpec.kIdx ⟨t.val % 8, Nat.mod_lt _ (by decide)⟩ kk) hr rfl,
    weight_apply V c t kk q (LowRankSpec.kIdx ⟨t.val % 8, Nat.mod_lt _ (by decide)⟩ kk) cl rfl hc]

/-- THE INVARIANT. After the point at position `n`, whose contraction coordinate is `n % 8`, the scratch holds at
    (p, q) the partial sums of the contraction blocks 0 … n % 8 for the result entry the point's block puts there. -/
private theorem acc_apply (c : Dev nD) (p q : Fin 1024) (r : Fin 8192) (cl : Fin 4096) :
    ∀ (n : ℕ) (hn : n < cfg1.N), r.val = n / 32 * 1024 + p.val → cl.val = n / 8 % 4 * 1024 + q.val →
      accAt V c n hn (ix2 p q) = ∑ kb ∈ Finset.range (n % 8 + 1), blockSum V c r cl kb := by
  intro n
  induction n with
  | zero =>
    intro hn hr hc
    rw [show 0 % 8 + 1 = 1 from rfl, Finset.sum_range_one]
    exact acc_restart V c p q r cl ⟨0, hn⟩ rfl hr hc
  | succ n ih =>
    intro hn hr hc
    by_cases h8 : (n + 1) % 8 = 0
    · rw [h8, Finset.sum_range_one]
      exact acc_restart V c p q r cl ⟨n + 1, hn⟩ h8 hr hc
    · have e : (n + 1) % 8 = n % 8 + 1 := by omega
      rw [Finset.sum_range_succ]
      refine (acc_continue V c p q r cl ⟨n + 1, hn⟩ h8 hr hc).trans ?_
      show accAt V c n (Nat.lt_of_succ_lt hn) (ix2 p q) + blockSum V c r cl ((n + 1) % 8) = _
      rw [ih (Nat.lt_of_succ_lt hn) (by omega) (by omega), e]

/-! ## The block a point writes back, and the array after the run -/

/-- WHAT A POINT WRITES BACK, at the points whose contraction coordinate is 7: its block of the one whole-array
    function. The eight partial sums are the whole sum regrouped. -/
private theorem flushed_eq (c : Dev nD) (t : Fin cfg1.N) (hf : (cfg1.win 3).flush t = true) :
    (dat1 (F := Ideal) V c).flushed 3 t
      = ((cfg1.win 3).blk t).view.read (Elt Ideal) (LowRankSpec.out (V c main_arg0) (V c main_v0) (V c main_v1)) := by
  have h7 : t.val % 8 = 7 := (flush1_3 t).mp hf
  have ht : t.val < 256 := lt_of_lt_of_eq t.isLt N_1
  obtain ⟨-, -, -, -, -, -, e6, e7⟩ := block_indices t
  show (cfg1.win 3).cut (grid1.coords t) ((dat1 (F := Ideal) V c).after 3 t) = _
  rw [after1_3]
  funext j
  rw [View.read_apply]
  have hp : (j 0).val < 1024 := (j 0).isLt
  have hq : (j 1).val < 1024 := (j 1).isLt
  have hj : (cfg1.win 3).xinj (grid1.coords t) j = ix2 (⟨(j 0).val, hp⟩ : Fin 1024) (⟨(j 1).val, hq⟩ : Fin 1024) :=
    funext fun d => match d with
      | ⟨0, _⟩ => rfl
      | ⟨1, _⟩ => rfl
  have hemb : ((cfg1.win 3).blk t).view.emb j
      = ix2 (⟨t.val / 32 * 1024 + (j 0).val, by omega⟩ : Fin 8192) (⟨t.val / 8 % 4 * 1024 + (j 1).val, by omega⟩ : Fin 4096) :=
    funext fun d => Fin.ext (by
      match d with
      | ⟨0, _⟩ => show win1_3.index t (0 : Fin 2) * 1024 + 1 * (j 0).val = t.val / 32 * 1024 + (j 0).val; rw [e6]; omega
      | ⟨1, _⟩ => show win1_3.index t (1 : Fin 2) * 1024 + 1 * (j 1).val = t.val / 8 % 4 * 1024 + (j 1).val; rw [e7]; omega)
  show k1_pay3 (accAt V c t.val t.isLt) (iblk1 V c 2 t) ((cfg1.win 3).xinj (grid1.coords t) j)
    = LowRankSpec.out (V c main_arg0) (V c main_v0) (V c main_v1) (((cfg1.win 3).blk t).view.emb j)
  rw [hj, hemb, epilogue_apply,
    acc_apply V c ⟨(j 0).val, hp⟩ ⟨(j 1).val, hq⟩ ⟨t.val / 32 * 1024 + (j 0).val, by omega⟩
      ⟨t.val / 8 % 4 * 1024 + (j 1).val, by omega⟩ t.val t.isLt rfl rfl,
    bias_apply V c t ⟨(j 1).val, hq⟩ ⟨t.val / 8 % 4 * 1024 + (j 1).val, by omega⟩ rfl, h7]
  show _ = (∑ k : Fin 4096, xArr V c (ix2 _ k) * wArr V c (ix2 k _)) + _
  rw [LowRankSpec.sum_blocks, Finset.sum_range]
  refine congrArg₂ (· + ·) (Finset.sum_congr rfl fun kb _ => ?_) rfl
  unfold blockSum
  exact (dif_pos kb.isLt).trans rfl

/-- Every entry of the result array lies in the block of a point that writes back: entry (r, cl) in that of the
    point (r / 1024, cl / 1024, 7). -/
private theorem covered (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hlt : ((i 0).val / 1024 * 4 + (i 1).val / 1024) * 8 + 7 < cfg1.N :=
    lt_of_lt_of_eq (b := 256) (by omega) N_1.symm
  obtain ⟨t, ht⟩ : ∃ t : Fin cfg1.N, t.val = ((i 0).val / 1024 * 4 + (i 1).val / 1024) * 8 + 7 := ⟨⟨_, hlt⟩, rfl⟩
  obtain ⟨-, -, -, -, -, -, e6, e7⟩ := block_indices t
  refine ⟨t, (flush1_3 t).mpr (by omega), ?_⟩
  show i ∈ ((View.whole main_v2).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 1024 ≤ (i 1).val ∧ (i 1).val < win1_3.index t (1 : Fin 2) * 1024 + 1024
    rw [e7]; omega

/-- The result array after the region, from the three arrays the region found. -/
theorem final1 (c : Dev nD) :
    ((dat1 (F := Ideal) V c).arrAt 3 cfg1.N : S8192x4096.Idx → EReal)
      = LowRankSpec.out (V c main_arg0) (V c main_v0) (V c main_v1) :=
  (dat1 (F := Ideal) V c).arrAt_eq_of_cover 3 (LowRankSpec.out (V c main_arg0) (V c main_v0) (V c main_v1))
    (flushed_eq V c) covered

end Cert.KernelIdeal.Pipe

end
-- ==== Proof.RefValue.lean ====
/-
  The reference program's result, read at an index, is the specification's `result`: the product of x with the dense
  weight U · Vt plus the bias broadcast along the rows. Also the composition the kernel side needs: `out` at the dense
  weight, with the bias kept as a 1 × 4096 row, is the same `result`.
-/
import proofs.«156762_j88356067213436_1_alg».proof.Proof.Gen.ReferenceIdeal.Run
import proofs.«156762_j88356067213436_1_alg».proof.Proof.Gen.ReferenceIdeal.Read
import proofs.«156762_j88356067213436_1_alg».proof.Proof.Spec

noncomputable section

namespace Cert.ReferenceIdeal.RefValue

open Cert.ReferenceIdeal Cert.ReferenceIdeal.Gen Idealize.ShloMosaic Idealize.ShloMosaic.ValueIdx

/-- The outer product at (p, q) reads x at row `p`, column `k`. -/
private theorem lidx1_eq (p : Fin 8192) (q k : Fin 4096) : Read.lidx_main_v1 (ix2 p q) k = ix2 p k :=
  funext fun a => Fin.ext (by match a with | ⟨0, _⟩ => rfl | ⟨1, _⟩ => rfl)

/-- The outer product at (p, q) reads the weight at row `k`, column `q`. -/
private theorem ridx1_eq (p : Fin 8192) (q k : Fin 4096) : Read.ridx_main_v1 (ix2 p q) k = ix2 k q :=
  funext fun a => Fin.ext (by match a with | ⟨0, _⟩ => rfl | ⟨1, _⟩ => rfl)

/-- The inner product at weight position (k, j) reads U at row `k`, column `r`. -/
private theorem lidx0_eq (k j : Fin 4096) (r : Fin 64) : Read.lidx_main_v0 (ix2 k j) r = ix2 k r :=
  funext fun a => Fin.ext (by match a with | ⟨0, _⟩ => rfl | ⟨1, _⟩ => rfl)

/-- The inner product at weight position (k, j) reads Vt at row `r`, column `j`. -/
private theorem ridx0_eq (k j : Fin 4096) (r : Fin 64) : Read.ridx_main_v0 (ix2 k j) r = ix2 r j :=
  funext fun a => Fin.ext (by match a with | ⟨0, _⟩ => rfl | ⟨1, _⟩ => rfl)

/-- The two broadcasts at (p, q) read the bias at column `q`. -/
private theorem idx23_eq (p : Fin 8192) (q : Fin 4096) : Read.idx_main_v2 (Read.idx_main_v3 (ix2 p q)) = ix1 q :=
  funext fun a => Fin.ext (by match a with | ⟨0, _⟩ => rfl)

/-- THE REFERENCE IS THE SPECIFICATION. -/
theorem ref_result (x0 : (⟨Cert.ReferenceIdeal.S8192x4096, .f32⟩ : BufTy).Contents (Elt Ideal)) (x1 : (⟨Cert.ReferenceIdeal.S4096x64, .f32⟩ : BufTy).Contents (Elt Ideal)) (x2 : (⟨Cert.ReferenceIdeal.S64x4096, .f32⟩ : BufTy).Contents (Elt Ideal)) (x3 : (⟨Cert.ReferenceIdeal.S4096, .f32⟩ : BufTy).Contents (Elt Ideal)) :
    Cert.ReferenceIdeal.Read.val_main_v4 (F := Ideal) x0 x1 x2 x3 = LowRankSpec.result x0 x1 x2 x3 := by
  funext i
  obtain ⟨p, q, rfl⟩ : ∃ (p : Fin 8192) (q : Fin 4096), i = ix2 p q := ⟨i 0, i 1, eq_ix2 i⟩
  show _ = (∑ k : Fin 4096, x0 (ix2 p k) * (∑ r : Fin 64, x1 (ix2 k r) * x2 (ix2 r q))) + x3 (ix1 q)
  rw [Read.val_main_v4_apply, Read.val_main_v1_apply, Read.val_main_v3_apply, Read.val_main_v2_apply, idx23_eq,
    Ideal.addf_def]
  congr 1
  refine Finset.sum_congr rfl fun k _ => ?_
  rw [lidx1_eq, ridx1_eq, Read.val_main_v0_apply]
  congr 1
  refine Finset.sum_congr rfl fun r _ => ?_
  rw [lidx0_eq, ridx0_eq]

/-- The kernel's form, `out` at the dense weight with the bias as a 1 × 4096 row, is the same `result`. -/
theorem out_weight_eq (x : LowRankSpec.SX.Idx → EReal) (u : LowRankSpec.SU.Idx → EReal) (vt : LowRankSpec.SVt.Idx → EReal) (b : LowRankSpec.SB.Idx → EReal) (b2 : LowRankSpec.SB2.Idx → EReal) (hb : ∀ q : Fin 4096, b2 (ValueIdx.ix2 (0 : Fin 1) q) = b (ValueIdx.ix1 q)) :
    LowRankSpec.out x (LowRankSpec.weight u vt) b2 = LowRankSpec.result x u vt b := by
  funext i
  unfold LowRankSpec.out LowRankSpec.result
  exact congrArg (_ + ·) (hb (i 1))

end Cert.ReferenceIdeal.RefValue

end
-- ==== Proof.KI.Result.lean ====
/-
  The result array at the end of the run, on the extended reals, is the specification's `result` of the four arguments
  as launched: the product kernel's array is `out` of what its region was entered with (x as launched, the weight array
  the first region wrote, which is the dense weight of U and Vt, and the bias as a row, which reads the bias at its
  column).
-/
import proofs.«156762_j88356067213436_1_alg».proof.Proof.Gen.KernelIdeal.Launch
import proofs.«156762_j88356067213436_1_alg».proof.Proof.Gen.KernelIdeal.Skeleton
import proofs.«156762_j88356067213436_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«156762_j88356067213436_1_alg».proof.Proof.KI.Launch
import proofs.«156762_j88356067213436_1_alg».proof.Proof.KI.Value0
import proofs.«156762_j88356067213436_1_alg».proof.Proof.KI.Value1
import proofs.«156762_j88356067213436_1_alg».proof.Proof.RefValue
import Idealize.ShloMosaic.Lib.ValueLayout
set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- THE KERNEL'S VALUE: the result array after the run is x · (U · Vt) + bias. -/
theorem result_eq (c : Dev nD) :
    ((dat1 (F := Ideal) (E2 m) c).arrAt 3 cfg1.N : S8192x4096.Idx → EReal)
      = LowRankSpec.result (m ((c : Thread nD τ).loc main_arg0)) (m ((c : Thread nD τ).loc main_arg1))
          (m ((c : Thread nD τ).loc main_arg2)) (m ((c : Thread nD τ).loc main_arg3)) := by
  rw [final1 (E2 m) c, E2_main_arg0 m c, E2_main_v0 m c, E2_main_v1 m c, final0 (E0 m) c]
  exact Cert.ReferenceIdeal.RefValue.out_weight_eq _ _ _ _ _
    (fun q => ValueIdx.shapeCast_a_1a_apply (m ((c : Thread nD τ).loc main_arg3)) shapeCasts_S4096_S1x4096 (0 : Fin 1) q)

end Cert.KernelIdeal.Pipe

end
-- ==== Proof.lean ====
/-
  The certificate of the low-rank linear layer: a Pallas program of two kernels (the dense weight U · Vt computed block
  by block, then a blocked product x · W with an accumulator over the contraction axis and the bias added at the last
  block) against the plain jnp program x · (U · Vt) + bias.

  The three frames: the kernel program at the word level and at the ideal instance both run as the first region, one
  host reshape and the second region, each region's body proved at every grid point; the reference is five host
  operations. Nothing was idealized away, so the preservation conjunct is trivial. On the extended reals both
  programs end with out[i, j] = Σ_k x[i, k] · (Σ_r U[k, r] · Vt[r, j]) + bias[j]: the kernel's eight partial sums over
  blocks of 512 are that sum regrouped, which needs only that addition is commutative and associative.
-/
import proofs.«156762_j88356067213436_1_alg».proof.Defs
import proofs.«156762_j88356067213436_1_alg».proof.Proof.Gen.Kernel
import proofs.«156762_j88356067213436_1_alg».proof.Proof.Gen.KernelIdeal
import proofs.«156762_j88356067213436_1_alg».proof.Proof.Gen.ReferenceIdeal
import proofs.«156762_j88356067213436_1_alg».proof.Proof.Gen.Pre_finite_inputs
import proofs.«156762_j88356067213436_1_alg».proof.Proof.Gen.ReferenceIdeal.Run
import proofs.«156762_j88356067213436_1_alg».proof.Proof.Gen.ReferenceIdeal.Read
import proofs.«156762_j88356067213436_1_alg».proof.Proof.K.Launch
import proofs.«156762_j88356067213436_1_alg».proof.Proof.KI.Launch
import proofs.«156762_j88356067213436_1_alg».proof.Proof.KI.Result
import proofs.«156762_j88356067213436_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Pipe.frame (F := Bits) m ρ

/-- So does its reading at the ideal instance. -/
theorem frame_ki : Cert.frame_KernelIdeal := fun m ρ _ => Cert.KernelIdeal.Pipe.frame (F := Ideal) m ρ

/-- The reference runs: its five host operations read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with x · (U · Vt) + bias of arguments that agree. -/
theorem algebraic : Cert.algebraic_KernelIdeal_ReferenceIdeal := by
  intro m ρ m' ρ' _ hagree
  refine ⟨fun c => (Cert.KernelIdeal.Pipe.dat1 (F := Ideal) (Cert.KernelIdeal.Pipe.E2 m) c).arrAt 3 Cert.KernelIdeal.cfg1.N,
    Cert.KernelIdeal.Pipe.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_result,
    (hagree c).1, (hagree c).2.1, (hagree c).2.2.1, (hagree c).2.2.2]
  exact (Cert.KernelIdeal.Pipe.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
